-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4x128 : Shape := ⟨2, ![4, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S8192x128 .f32) (main_arg1 : FVec F S4x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  main_v8
-- ==== Kernel.lean ====
abbrev S8192x128 : Shape := ⟨2, ![8192, 128]⟩
abbrev S4x128 : Shape := ⟨2, ![4, 128]⟩
abbrev S4x8192x128 : Shape := ⟨3, ![4, 8192, 128]⟩
abbrev S1024x128 : Shape := ⟨2, ![1024, 128]⟩
abbrev S4x1024x128 : Shape := ⟨3, ![4, 1024, 128]⟩
abbrev S1x128 : Shape := ⟨2, ![1, 128]⟩
abbrev S128 : Shape := ⟨1, ![128]⟩
abbrev S1024 : Shape := ⟨1, ![1024]⟩
abbrev S1024x1 : Shape := ⟨2, ![1024, 1]⟩
abbrev S1x1024x128 : Shape := ⟨3, ![1, 1024, 128]⟩
abbrev S8192x8192 : Shape := ⟨2, ![8192, 8192]⟩
abbrev S1024x1024 : Shape := ⟨2, ![1024, 1024]⟩
abbrev S128x1024 : Shape := ⟨2, ![128, 1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S4x128, .f32⟩
  | .hbm, ⟨2, _⟩ => ⟨S4x8192x128, .bf16⟩
  | .hbm, ⟨3, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S4x128, .f32⟩
  | .local _ .vmem, ⟨3, _⟩ => ⟨S4x1024x128, .bf16⟩
  | .local _ .vmem, ⟨4, _⟩ => ⟨S4x1024x128, .bf16⟩
  | .local _ .vmem, ⟨5, _⟩ => ⟨S4x1024x128, .bf16⟩
  | .local _ .vmem, ⟨6, _⟩ => ⟨S4x1024x128, .bf16⟩
  | .local _ .vmem, ⟨7, _⟩ => ⟨S4x1024x128, .bf16⟩
  | .local _ .vmem, ⟨8, _⟩ => ⟨S4x1024x128, .bf16⟩
  | .local _ .vmem, ⟨9, _⟩ => ⟨S1024x1024, .f32⟩
  | .local _ .vmem, ⟨10, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x128_S1024x128_0_0 : ∀ a, (![0, 0] : Fin 2 → Nat) a + S1024x128.size a ≤ S1024x128.size a
  h_S1024x128 : 0 < S1024x128.numel
  inb_S4x128_S4x128_0_0 : ∀ a, (![0, 0] : Fin 2 → Nat) a + S4x128.size a ≤ S4x128.size a
  h_S4x128 : 0 < S4x128.numel
  slices_S4x128_o0_0_S1x128 : S4x128.Slices ![0, 0] S1x128
  shapeCasts_S1x128_S128 : S1x128.ShapeCasts S128
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  inb_S4x1024x128_S1x1024x128_0_0_0 : ∀ a, (![0, 0, 0] : Fin 3 → Nat) a + S1x1024x128.size a ≤ S4x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S4x1024x128_S1x1024x128_0_0_0 : (Rect.unit (s := S4x1024x128) ![0, 0, 0] S1x1024x128.size inb_S4x1024x128_S1x1024x128_0_0_0).PackedRows (EltTy.packing .bf16)
  slices_S4x128_o1_0_S1x128 : S4x128.Slices ![1, 0] S1x128
  inb_S4x1024x128_S1x1024x128_1_0_0 : ∀ a, (![1, 0, 0] : Fin 3 → Nat) a + S1x1024x128.size a ≤ S4x1024x128.size a
  packedbf16_S4x1024x128_S1x1024x128_1_0_0 : (Rect.unit (s := S4x1024x128) ![1, 0, 0] S1x1024x128.size inb_S4x1024x128_S1x1024x128_1_0_0).PackedRows (EltTy.packing .bf16)
  slices_S4x128_o2_0_S1x128 : S4x128.Slices ![2, 0] S1x128
  inb_S4x1024x128_S1x1024x128_2_0_0 : ∀ a, (![2, 0, 0] : Fin 3 → Nat) a + S1x1024x128.size a ≤ S4x1024x128.size a
  packedbf16_S4x1024x128_S1x1024x128_2_0_0 : (Rect.unit (s := S4x1024x128) ![2, 0, 0] S1x1024x128.size inb_S4x1024x128_S1x1024x128_2_0_0).PackedRows (EltTy.packing .bf16)
  slices_S4x128_o3_0_S1x128 : S4x128.Slices ![3, 0] S1x128
  inb_S4x1024x128_S1x1024x128_3_0_0 : ∀ a, (![3, 0, 0] : Fin 3 → Nat) a + S1x1024x128.size a ≤ S4x1024x128.size a
  packedbf16_S4x1024x128_S1x1024x128_3_0_0 : (Rect.unit (s := S4x1024x128) ![3, 0, 0] S1x1024x128.size inb_S4x1024x128_S1x1024x128_3_0_0).PackedRows (EltTy.packing .bf16)
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x128.size a ≤ S4x8192x128.size a
  hwx0_2 : ∀ i : grid0.Coords, EltTy.bits .bf16 = 32 ∨ (Rect.block (s := S4x8192x128) S4x1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x128.size a ≤ S4x8192x128.size a
  hwx1_0 : ∀ i : grid1.Coords, EltTy.bits .bf16 = 32 ∨ (Rect.block (s := S4x8192x128) S4x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x1024x128.size a ≤ S4x8192x128.size a
  hwx1_1 : ∀ i : grid1.Coords, EltTy.bits .bf16 = 32 ∨ (Rect.block (s := S4x8192x128) S4x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S4x128 : Shape := ⟨2, ![4, 128]⟩
abbrev S1x8192x128 : Shape := ⟨3, ![1, 8192, 128]⟩
abbrev S4x1x128 : Shape := ⟨3, ![4, 1, 128]⟩
abbrev S4x8192x128 : Shape := ⟨3, ![4, 8192, 128]⟩
abbrev S_ : Shape := ⟨0, ![]⟩
abbrev S4x8192 : Shape := ⟨2, ![4, 8192]⟩
abbrev S4x8192x1 : Shape := ⟨3, ![4, 8192, 1]⟩
abbrev S4x8192x8192 : Shape := ⟨3, ![4, 8192, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4x128, .f32⟩
  | .hbm, ⟨2, _⟩ => ⟨S1x8192x128, .f32⟩
  | .hbm, ⟨3, _⟩ => ⟨S4x1x128, .f32⟩
  | .hbm, ⟨4, _⟩ => ⟨S4x8192x128, .f32⟩
  | .hbm, ⟨5, _⟩ => ⟨S4x8192x128, .f32⟩
  | .hbm, ⟨6, _⟩ => ⟨S4x8192x128, .f32⟩
  | .hbm, ⟨7, _⟩ => ⟨S4x8192x128, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x128, .f32⟩
  | .hbm, ⟨16, _⟩ => ⟨S4x8192x128, .f32⟩
  | .hbm, ⟨17, _⟩ => ⟨S4x8192x8192, .f32⟩
  | .hbm, ⟨18, _⟩ => ⟨S_, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S8192x128_S1x8192x128_1_2 : S8192x128.BroadcastsInDim S1x8192x128 (![1, 2] : Fin 2 → Fin S1x8192x128.rank)
  bcast_S4x128_S4x1x128_0_2 : S4x128.BroadcastsInDim S4x1x128 (![0, 2] : Fin 2 → Fin S4x1x128.rank)
  bcast_S1x8192x128_S4x8192x128_0_1_2 : S1x8192x128.BroadcastsInDim S4x8192x128 (![0, 1, 2] : Fin 3 → Fin S4x8192x128.rank)
  bcast_S4x1x128_S4x8192x128_0_1_2 : S4x1x128.BroadcastsInDim S4x8192x128 (![0, 1, 2] : Fin 3 → Fin S4x8192x128.rank)
  reducesTo_S4x8192x128_S4x8192_d2 : S4x8192x128.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x128_0_1_2 : S4x8192x1.BroadcastsInDim S4x8192x128 (![0, 1, 2] : Fin 3 → Fin S4x8192x128.rank)
  reducesTo_S4x8192x8192_S8192x8192_d0 : S4x8192x8192.ReducesTo [0] S8192x8192
  bcast_S_S8192x8192 : S_.BroadcastsInDim S8192x8192 (![] : Fin 0 → Fin S8192x8192.rank)
  dot_S4x8192x128_S4x8192x128_S4x8192x8192_2_2_1_1_0_0_wf : DotDims.WF S4x8192x128 S4x8192x128 S4x8192x8192 [2] [2] [1] [1] [0] [0]

variable [Facts₀]

def dot_S4x8192x128_S4x8192x128_S4x8192x8192_2_2_1_1_0_0 : DotDims S4x8192x128 S4x8192x128 S4x8192x8192 where
  lhsContracting := [2]
  rhsContracting := [2]
  lhsNonContracting := [1]
  rhsNonContracting := [1]
  lhsBatch := [0]
  rhsBatch := [0]
  wf := dot_S4x8192x128_S4x8192x128_S4x8192x8192_2_2_1_1_0_0_wf

class Facts : Prop extends Facts₀ where

variable [Facts]
-- ==== Proof.Kernel.Stores.lean ====
/-
  What each kernel body leaves in its output block, as a function of the blocks it reads.

  The first kernel reads a block of 1024 embedding rows and the whole 4 × 128 weight table and writes, head by head,
  the 1024 normalised rows of each of the four heads: four slices `[p, :, :]` of its `[4, 1024, 128]` output block,
  each stored once. `normBlock` is that block: at an index of slice `p` the payload of the store to slice `p`.

  The second kernel reads two blocks of normalised rows (row tile `i` and row tile `j`, all four heads of each) and
  writes one `[1024, 1024]` block in a single store. `attnBlock` is that block.

  The four slices tile the first block and the one store fills the second, so either block is determined by the
  stores alone, whatever the buffer held before.
-/
import proofs.«134704_j29703993819992_1_alg».proof.Proof.Gen.Kernel.Skeleton
import Idealize.ShloMosaic.Lib.Pipeline.FrameBody
import Idealize.ShloMosaic.Lib.Ring

set_option maxRecDepth 16384

noncomputable section

namespace Cert.Kernel.Hand

open Idealize.ShloMosaic Idealize.SL.Sem
open Cert.Kernel Cert.Kernel.Gen

variable {F : FTy → Type} [FloatOps F]

/-- The whole block of embedding rows, the whole weight table, the whole block of similarities. -/
abbrev rEmb : Rect S1024x128 := Rect.unit (s := S1024x128) ![0, 0] S1024x128.size inb_S1024x128_S1024x128_0_0
abbrev rWts : Rect S4x128 := Rect.unit (s := S4x128) ![0, 0] S4x128.size inb_S4x128_S4x128_0_0
abbrev rSims : Rect S1024x1024 := Rect.unit (s := S1024x1024) ![0, 0] S1024x1024.size inb_S1024x1024_S1024x1024_0_0
/-- Head `p`'s slice `[p, :, :]` of a block of normalised rows. -/
abbrev rHead0 : Rect S4x1024x128 := Rect.unit (s := S4x1024x128) ![0, 0, 0] S1x1024x128.size inb_S4x1024x128_S1x1024x128_0_0_0
abbrev rHead1 : Rect S4x1024x128 := Rect.unit (s := S4x1024x128) ![1, 0, 0] S1x1024x128.size inb_S4x1024x128_S1x1024x128_1_0_0
abbrev rHead2 : Rect S4x1024x128 := Rect.unit (s := S4x1024x128) ![2, 0, 0] S1x1024x128.size inb_S4x1024x128_S1x1024x128_2_0_0
abbrev rHead3 : Rect S4x1024x128 := Rect.unit (s := S4x1024x128) ![3, 0, 0] S1x1024x128.size inb_S4x1024x128_S1x1024x128_3_0_0

/-- The block of normalised rows the first kernel leaves, from its block of embedding rows `x0` and the weight table
    `x1`: the four heads' slices, the last stored first. -/
def normBlock (x0 : Vec F S1024x128 .f32) (x1 : Vec F S4x128 .f32) : Vec F S4x1024x128 .bf16 :=
  View.canon [⟨rHead3, k0_pay2 (View.ld x0 rEmb) (View.ld x1 rWts)⟩,
    ⟨rHead2, k0_pay1 (k0_pay5 (View.ld x0 rEmb) (View.ld x1 rWts)) (k0_pay6 (View.ld x0 rEmb) (View.ld x1 rWts))⟩,
    ⟨rHead1, k0_pay4 (View.ld x0 rEmb) (View.ld x1 rWts)⟩,
    ⟨rHead0, k0_pay3 (View.ld x0 rEmb) (View.ld x1 rWts)⟩]

/-- The four slices tile the block. -/
theorem normBlock_cover (p3 p2 p1 p0 : Vec F S1x1024x128 .bf16) (y : S4x1024x128.Idx) :
    ∃ pc ∈ ([⟨rHead3, p3⟩, ⟨rHead2, p2⟩, ⟨rHead1, p1⟩, ⟨rHead0, p0⟩] : List (View.Piece (Elt F) S4x1024x128 .bf16)), y ∈ pc.1.set :=
  View.cover_of_tiled [⟨rHead3, p3⟩, ⟨rHead2, p2⟩, ⟨rHead1, p1⟩, ⟨rHead0, p0⟩] S1x1024x128.size (by rfl) y

/-- The block of similarities the second kernel leaves, from the row-tile block `a` and the column-tile block `b` of
    normalised rows: one store of the whole block. -/
def attnBlock (a b : Vec F S4x1024x128 .bf16) : Vec F S1024x1024 .f32 :=
  View.canon [⟨rSims, k1_pay1 (k1_pay2 (View.ld a rHead0) (View.ld b rHead0) (View.ld a rHead1) (View.ld b rHead1)
    (View.ld a rHead2) (View.ld b rHead2) (View.ld a rHead3) (View.ld b rHead3))⟩]

/-- The one store fills the block. -/
theorem attnBlock_cover (p0 : Vec F S1024x1024 .f32) (y : S1024x1024.Idx) :
    ∃ pc ∈ ([⟨rSims, p0⟩] : List (View.Piece (Elt F) S1024x1024 .f32)), y ∈ pc.1.set :=
  View.cover_of_tiled [⟨rSims, p0⟩] S1024x1024.size (by rfl) y

end Cert.Kernel.Hand

end
-- ==== Proof.Kernel.Data.lean ====
/-
  The two pipelines' proof data, at the contents `V` the buffers hold when a kernel is entered.

  A window's block at a grid point is the part of its array the point's index map selects. After the body has run at
  a point, an input window's staging buffer still holds its block and the output window's holds the body's block
  (`normBlock`, `attnBlock`) of the input blocks at that point.

  The second kernel reads ONE array, the normalised rows, through two windows (row tile `i`, row tile `j`). Neither
  window writes it, so each holds half of it: the proof data give the two input windows the two halves of the full
  share and the output window the whole of its own array.
-/
import proofs.«134704_j29703993819992_1_alg».proof.Proof.Kernel.Stores
import proofs.«134704_j29703993819992_1_alg».proof.Proof.Gen.Kernel.Launch
import proofs.«134704_j29703993819992_1_alg».proof.Proof.Gen.Kernel.Points
import Idealize.ShloMosaic.Lib.Pipeline.FrameBody

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.Kernel Cert.Kernel.Gen

variable {F : FTy → Type} [FloatOps F]

variable (V : (c : Dev nD) → (b : Ref sig .tc) → Buf (Elt F) ((c : Thread nD τ).loc b))

/-- Window `w`'s block at point `t` of the first kernel's grid, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of the second kernel's grid. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first kernel's proof data: the arrays as found; after the body the inputs' buffers at their blocks and the
    output's at `normBlock` of them; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => normBlock (iblk0 V c 0 t) (iblk0 V c 1 t)
  Φ _ := Pipeline.ΦA spec0 c
  q _ := fullShare
  owed _ := 0

/-- The second kernel's proof data: the same, with `attnBlock`, the two input windows each holding one half of the
    array they share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => attnBlock (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = normBlock (iblk0 V c 0 t) (iblk0 V c 1 t) := by dsimp only [dat0]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = attnBlock (iblk1 V c 0 t) (iblk1 V c 1 t) := by dsimp only [dat1]

end Cert.Kernel.Hand

end
-- ==== Proof.Kernel.NormBody.lean ====
/-
  The first kernel's body, run on whole staging buffers: from the block of embedding rows and the weight table it
  leaves the inputs as they were and the output buffer at `normBlock` of them.
-/
import proofs.«134704_j29703993819992_1_alg».proof.Proof.Kernel.Stores
import proofs.«134704_j29703993819992_1_alg».proof.Proof.Gen.Kernel.Launch
import proofs.«134704_j29703993819992_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The normalising body on whole staging buffers: the inputs' at contents `x0`, `x1` and the output's at anything, it
    runs to the continuation holding the inputs' as they were and the output's at `normBlock x0 x1`. -/
theorem sound_norm (c : Dev nD) (E : Set ℕ) (i : grid0.Coords)
    (arg1 : Memref sig .tc .vmem S1024x128 .f32) (harg1 : arg1.IsWhole) (arg2 : Memref sig .tc .vmem S4x128 .f32) (harg2 : arg2.IsWhole)
    (arg3 : Memref sig .tc .vmem S4x1024x128 .bf16) (harg3 : arg3.IsWhole)
    (x0 : Vec F S1024x128 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (normBlock x0 x1)) -∗ K ⟨⟩))
      ⊢ wp frame (wpE (defs₀ (F := F)) Variants.none c none) E (cc0_normalize_kernel i arg1 harg1 arg2 harg2 arg3 harg3) K := by
  -- The body is its sequence of memory operations over the named payloads: two whole loads of the inputs, then for each
  -- head a load of the output slice (its value unused) and one store of the head's normalised rows into that slice.
  sl_unfold [cc0_normalize_kernel, k0_part1]
  unfold owns
  iintro ⟨⟨%f0, %hf0, H0⟩, ⟨%f1, %hf1, H1⟩, ⟨%d, %f, -, H⟩, Hk⟩
  subst hf0; subst hf1
  sl_exec
  sl_step
  iapply Hk
  -- The inputs are only read: each still holds the contents it held.
  isplitl [H0]
  · iexists f0; isplitr; · ipureintro; rfl
    iexact H0
  isplitl [H1]
  · iexists f1; isplitr; · ipureintro; rfl
    iexact H1
  -- The output holds its old contents overwritten by the four stores. The four slices tile the block, so what is read
  -- back is determined by the stores alone: at an index of slice `p`, the payload stored to slice `p`.
  iexists _; isplitr
  swap; · iexact H
  ipureintro
  rw [View.read_writes_eq_canon _ _ _ (normBlock_cover _ _ _ _)]
  unfold normBlock
  sl_unfold_run_names
  -- Each payload is taken at the whole-block reads of the two inputs, which is how `normBlock` states them.
  rfl

end Cert.Kernel.Hand

end
-- ==== Proof.Kernel.AttnBody.lean ====
/-
  The second kernel's body, run on whole staging buffers: from the two blocks of normalised rows it leaves the inputs
  as they were and the output buffer at `attnBlock` of them.
-/
import proofs.«134704_j29703993819992_1_alg».proof.Proof.Kernel.Stores
import proofs.«134704_j29703993819992_1_alg».proof.Proof.Gen.Kernel.Launch
import proofs.«134704_j29703993819992_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The similarity body on whole staging buffers: the inputs' at contents `a`, `b` and the output's at anything, it runs
    to the continuation holding the inputs' as they were and the output's at `attnBlock a b`. -/
theorem sound_attn (c : Dev nD) (E : Set ℕ) (i : grid1.Coords)
    (arg2 : Memref sig .tc .vmem S4x1024x128 .bf16) (harg2 : arg2.IsWhole) (arg3 : Memref sig .tc .vmem S4x1024x128 .bf16) (harg3 : arg3.IsWhole)
    (arg4 : Memref sig .tc .vmem S1024x1024 .f32) (harg4 : arg4.IsWhole)
    (a b : Vec F S4x1024x128 .bf16) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b
            ∗ owns (c : Thread nD τ) arg4 fullShare (attnBlock a b)) -∗ K ⟨⟩))
      ⊢ wp frame (wpE (defs₀ (F := F)) Variants.none c none) E (cc1_attn_kernel i arg2 harg2 arg3 harg3 arg4 harg4) K := by
  simp only [cc1_attn_kernel_eq_skeleton]; unfold cc1_attn_kernel_skel
  simp only [k1_part1_eq_skeleton]; unfold k1_part1_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (attnBlock_cover _)

end Cert.Kernel.Hand

end
-- ==== Proof.Kernel.Oblig.lean ====
/-
  The body obligation of each pipeline: at every grid point, from the pipeline's invariant and every window's current
  staging buffer at what the proof data say it holds before the body, the kernel body runs to the invariant and every
  buffer at what the proof data say it holds after.

  An input window's buffer holds its block at every point, whether or not the block was fetched there: where it was
  not, the block index has not moved since the point before, and the body left the block in place. So the body is
  run on the input blocks (`sound_norm`, `sound_attn`), and what it leaves in the output buffer is the proof data's
  `after` by definition.
-/
import proofs.«134704_j29703993819992_1_alg».proof.Proof.Kernel.Data
import proofs.«134704_j29703993819992_1_alg».proof.Proof.Kernel.NormBody
import proofs.«134704_j29703993819992_1_alg».proof.Proof.Kernel.AttnBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers hold their blocks -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The first kernel -/

/-- What the normalising body is called with at point `t`, -/
def normPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def normPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem norm_at (c : Dev nD) (t : Fin cfg0.N) :
    normPre V c t ⊢ wp frame (wpE (defs₀ (F := F)) Variants.none c none) Set.univ (bodyAt0 t) (fun _ => normPost V c t) := by
  unfold normPre normPost bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_norm c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The first pipeline's body obligation. -/
theorem norm_obligation (c : Dev nD) : BodyObligation (dat0 (F := F) V c) (defs₀ (F := F)) Variants.none () Set.univ := fun t => by
  rw [bigSep_W0, bigSep_W0]
  exact norm_at V c t

/-! ## The second kernel -/

def attnPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def attnPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem attn_at (c : Dev nD) (t : Fin cfg1.N) :
    attnPre V c t ⊢ wp frame (wpE (defs₀ (F := F)) Variants.none c none) Set.univ (bodyAt1 t) (fun _ => attnPost V c t) := by
  unfold attnPre attnPost bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_attn c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The second pipeline's body obligation. -/
theorem attn_obligation (c : Dev nD) : BodyObligation (dat1 (F := F) V c) (defs₀ (F := F)) Variants.none () Set.univ := fun t => by
  rw [bigSep_W1, bigSep_W1]
  exact attn_at V c t

end Cert.Kernel.Hand

end
-- ==== Proof.Kernel.Shares.lean ====
/-
  The second kernel's arrays at its entry and at its exit.

  Its three windows stand on two buffers: the array of normalised rows, read through both input windows, and the array
  of similarities, written through the output window. At entry the normalised rows' buffer, held whole, is split in
  two halves, one per input window; neither window writes it, so at the exit both halves hold what was found, and
  they join back into the whole buffer at those contents. The similarities' buffer passes whole to the output window
  and comes back at what the write-backs leave.
-/
import proofs.«134704_j29703993819992_1_alg».proof.Proof.Kernel.Data
import Idealize.ShloMosaic.Lib.Pipeline.Kit
import Idealize.ShloMosaic.Lib.Pipeline.Cells

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two buffers behind the second kernel's three windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] (by decide) (by decide) _

/-- The second kernel's arrays, window by window: the two halves of the normalised rows' buffer and the whole of the
    similarities'. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W1, (arr_whole1 0).set_eq_univ, (arr_whole1 2).set_eq_univ]
  rfl

/-- ENTRY: the normalised rows' buffer split between the two input windows. -/
theorem arrays1_enter (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hu, Hs⟩
  ihave Hh := (pointsTo_share (PosShare.mem_left_op_right fullShare)).1 $$ Hu
  icases Hh with ⟨Hl, Hr⟩
  isplitl [Hl]; · iexact Hl
  isplitl [Hr]; · iexact Hr
  iexact Hs

/-- EXIT: the two halves, both at what was found, joined; the similarities' buffer at what the write-backs leave. -/
theorem arrays1_exit (c : Dev nD) (W : (b : Ref sig .tc) → Buf (Elt F) ((c : Thread nD τ).loc b))
    (h0 : W main_v0 = V c main_v0) (h1 : W main_v1 = (dat1 V c).arrAt 2 cfg1.N) :
    ((dat1 V c).arrays ((dat1 V c).arrAt · cfg1.N) : sProp 𝕄)
      ⊢ Pipeline.arrBufs (Ix := Unit) (Name := ℕ) (U := UR sig nD τ) (Lvl := ℕ) spec1 c W := by
  rw [arrBufs1_eq, arrays1_eq, h0, h1, (dat1 V c).arrAt_in 0 rfl, (dat1 V c).arrAt_in 1 rfl, A_eq1, A_eq1]
  iintro ⟨Hl, Hr, Hs⟩
  isplitl [Hl Hr]
  · iapply (pointsTo_share (PosShare.mem_left_op_right fullShare)).2
    isplitl [Hl]; · iexact Hl
    iexact Hr
  iexact Hs

end Cert.Kernel.Hand

end
-- ==== Proof.Kernel.Run.lean ====
/-
  The run of the whole program: the launch, the first kernel, the second kernel, the return.

  Between two items a core holds its four unscoped buffers whole: the two arguments, the array of normalised rows and
  the array of similarities. At launch they hold the launch memory (`W0`). The first kernel changes only the
  normalised rows, to what its write-backs leave (`W1`); the second only the similarities, likewise (`W2`). Each
  kernel is one region of the run: entered, its arrays are taken out of the held buffers (for the second kernel the
  normalised rows' buffer split between its two reading windows) and the remaining buffers bypass it; left, the arrays
  are put back at their final contents. Every weakly fair execution therefore terminates, and the final memory holds
  each unscoped buffer at `W2`: the arguments as launched, the similarities at the second pipeline's last contents.
-/
import proofs.«134704_j29703993819992_1_alg».proof.Proof.Kernel.Oblig
import proofs.«134704_j29703993819992_1_alg».proof.Proof.Kernel.Shares
import proofs.«134704_j29703993819992_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- After the first kernel: its arrays at what the pipeline leaves, every other buffer as launched. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem arr0_eq (c : Dev nD) (w : Fin cfg0.W) : (dat0 (U0 m ρ) c).arrAt w cfg0.N = U1 m ρ c (Pipeline.arrRef spec0 w) :=
  (W1_arr m ρ c w).symm
theorem rest0_eq (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the second kernel: the similarities at what its pipeline leaves, every other buffer as it found it. -/
def W2 (c : Dev nD) : Valuation τ sig (Elt F) :=
  Function.update (W1 m ρ c) (Proc.devRef .tc main_v1) ((dat1 (U1 m ρ) c).arrAt 2 cfg1.N)
abbrev U2 : (c : Dev nD) → (b : Ref sig .tc) → Buf (Elt F) ((c : Thread nD τ).loc b) := fun c b => W2 m ρ c b
theorem W2_sims (c : Dev nD) : W2 m ρ c (Proc.devRef .tc main_v1) = (dat1 (U1 m ρ) c).arrAt 2 cfg1.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..

/-! ## What each buffer holds at the end -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl

/-- The second kernel finds the arguments as launched and the normalised rows as the first kernel left them. -/
theorem U1_main_arg0 (c : Dev nD) : U1 m ρ c main_arg0 = m ((c : Thread nD τ).loc main_arg0) :=
  (W1_arr m ρ c 0).trans (((dat0 (U0 m ρ) c).arrAt_in 0 rfl _).trans (A_eq0 (U0 m ρ) c 0))
theorem U1_main_v0 (c : Dev nD) : U1 m ρ c main_v0 = (dat0 (U0 m ρ) c).arrAt 2 cfg0.N := W1_arr m ρ c 2

/-! ## The proof data family and the thread state -/

abbrev adm : (p : Fin 2) → (pcfgs (F := F) p).Adm := fun p => (cfgs p).toPCfg_adm

/-- Each pipeline's proof data at what its kernel finds. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U1 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two kernels as regions -/

set_option backward.isDefEq.respectTransparency.types false in
/-- The first kernel: entered from the buffers at `W0`, left at `W1`. Its three arrays are distinct buffers, each held
    whole. -/
def normRegion : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (norm_obligation (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (arr0_eq m ρ c) (rest0_eq m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The buffers that bypass the second kernel, the two arguments, hold the same at `W1` and at `W2`. -/
theorem rest1_eq (c : Dev nD) :
    (Pipeline.unscopedRest (Ix := Unit) (Name := ℕ) (U := UR sig nD τ) (Lvl := ℕ) spec1 c (U1 m ρ c) : sProp 𝕄)
      = Pipeline.unscopedRest (Ix := Unit) (Name := ℕ) (U := UR sig nD τ) (Lvl := ℕ) spec1 c (U2 m ρ c) := by
  rw [unscopedRest1_eq, unscopedRest1_eq,
    show U2 m ρ c main_arg0 = U1 m ρ c main_arg0 from W2_of_ne m ρ c main_arg0 (by decide),
    show U2 m ρ c main_arg1 = U1 m ρ c main_arg1 from W2_of_ne m ρ c main_arg1 (by decide)]

set_option backward.isDefEq.respectTransparency.types false in
/-- The second kernel: entered from the buffers at `W1`, left at `W2`. Its two reading windows share the normalised
    rows' buffer, half each (`arrays1_enter`, `arrays1_exit`). -/
def attnRegion : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (attn_obligation (U1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit : (StableHlo.held (c : Thread nD τ) (Pipeline.ucRefs τ sig) (W1 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (U1 m ρ c)) := by
      rw [← Pipeline.unscopedBufs_held (Ix := Unit) (Name := ℕ) (U := UR sig nD τ) (Lvl := ℕ) c (W1 m ρ c),
        Pipeline.unscopedBufs_split₀ (cfgs) 1 winFacts₀1.arr_unscoped c]
      exact sep_mono (arrays1_enter (U1 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (U1 m ρ c))
        ⊢ (StableHlo.held (c : Thread nD τ) (Pipeline.ucRefs τ sig) (W2 m ρ c) : sProp 𝕄) := by
      rw [← Pipeline.unscopedBufs_held (Ix := Unit) (Name := ℕ) (U := UR sig nD τ) (Lvl := ℕ) c (W2 m ρ c),
        Pipeline.unscopedBufs_split₀ (cfgs) 1 winFacts₀1.arr_unscoped c, rest1_eq m ρ c]
      exact sep_mono (arrays1_exit (U1 m ρ) c (U2 m ρ c) (W2_of_ne m ρ c main_v0 (by decide)) (W2_sims m ρ c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's two items, in order. -/
abbrev segs : List (Pipeline.Seg (pcfgs (F := F)) adm (pdats m ρ) () defs₀ 𝒱₀ L lv) :=
  [ .region (normRegion m ρ), .region (attnRegion m ρ) ]

theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds every unscoped buffer at `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every weakly fair execution terminates and leaves the two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m ρ c),
     (h c _ (mem_uc main_arg1 (by decide))).trans (W2_main_arg1 m ρ c)⟩) (run_main m ρ)

/-- The run with the similarities named: they end at the second pipeline's last contents, the pipeline having found
    the normalised rows at the first pipeline's last contents and the arguments as launched. -/
theorem run_sims : θ_run defs (onTc (τ := τ) (main (F := F))) ⟨m, fun _ => 0, ρ⟩ (fun r => ∀ c : Dev nD,
      r.2.mem ((c.tc : Thread nD τ).loc main_v1) = (dat1 (U1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_sims m ρ c),
     (h c _ (mem_uc main_arg0 (by decide))).trans (W2_main_arg0 m ρ c),
     (h c _ (mem_uc main_arg1 (by decide))).trans (W2_main_arg1 m ρ c)⟩) (run_main m ρ)

end Cert.Kernel.Hand

end
-- ==== Proof.KernelIdeal.Stores.lean ====
/-
  What each kernel body leaves in its output block, as a function of the blocks it reads.

  The first kernel reads a block of 1024 embedding rows and the whole 4 × 128 weight table and writes, head by head,
  the 1024 normalised rows of each of the four heads: four slices `[p, :, :]` of its `[4, 1024, 128]` output block,
  each stored once. `normBlock` is that block: at an index of slice `p` the payload of the store to slice `p`.

  The second kernel reads two blocks of normalised rows (row tile `i` and row tile `j`, all four heads of each) and
  writes one `[1024, 1024]` block in a single store. `attnBlock` is that block.

  The four slices tile the first block and the one store fills the second, so either block is determined by the
  stores alone, whatever the buffer held before.
-/
import proofs.«134704_j29703993819992_1_alg».proof.Proof.Gen.KernelIdeal.Skeleton
import Idealize.ShloMosaic.Lib.Pipeline.FrameBody
import Idealize.ShloMosaic.Lib.Ring

set_option maxRecDepth 16384

noncomputable section

namespace Cert.KernelIdeal.Hand

open Idealize.ShloMosaic Idealize.SL.Sem
open Cert.KernelIdeal Cert.KernelIdeal.Gen

variable {F : FTy → Type} [FloatOps F]

/-- The whole block of embedding rows, the whole weight table, the whole block of similarities. -/
abbrev rEmb : Rect S1024x128 := Rect.unit (s := S1024x128) ![0, 0] S1024x128.size inb_S1024x128_S1024x128_0_0
abbrev rWts : Rect S4x128 := Rect.unit (s := S4x128) ![0, 0] S4x128.size inb_S4x128_S4x128_0_0
abbrev rSims : Rect S1024x1024 := Rect.unit (s := S1024x1024) ![0, 0] S1024x1024.size inb_S1024x1024_S1024x1024_0_0
/-- Head `p`'s slice `[p, :, :]` of a block of normalised rows. -/
abbrev rHead0 : Rect S4x1024x128 := Rect.unit (s := S4x1024x128) ![0, 0, 0] S1x1024x128.size inb_S4x1024x128_S1x1024x128_0_0_0
abbrev rHead1 : Rect S4x1024x128 := Rect.unit (s := S4x1024x128) ![1, 0, 0] S1x1024x128.size inb_S4x1024x128_S1x1024x128_1_0_0
abbrev rHead2 : Rect S4x1024x128 := Rect.unit (s := S4x1024x128) ![2, 0, 0] S1x1024x128.size inb_S4x1024x128_S1x1024x128_2_0_0
abbrev rHead3 : Rect S4x1024x128 := Rect.unit (s := S4x1024x128) ![3, 0, 0] S1x1024x128.size inb_S4x1024x128_S1x1024x128_3_0_0

/-- The block of normalised rows the first kernel leaves, from its block of embedding rows `x0` and the weight table
    `x1`: the four heads' slices, the last stored first. -/
def normBlock (x0 : Vec F S1024x128 .f32) (x1 : Vec F S4x128 .f32) : Vec F S4x1024x128 .bf16 :=
  View.canon [⟨rHead3, k0_pay2 (View.ld x0 rEmb) (View.ld x1 rWts)⟩,
    ⟨rHead2, k0_pay1 (k0_pay5 (View.ld x0 rEmb) (View.ld x1 rWts)) (k0_pay6 (View.ld x0 rEmb) (View.ld x1 rWts))⟩,
    ⟨rHead1, k0_pay4 (View.ld x0 rEmb) (View.ld x1 rWts)⟩,
    ⟨rHead0, k0_pay3 (View.ld x0 rEmb) (View.ld x1 rWts)⟩]

/-- The four slices tile the block. -/
theorem normBlock_cover (p3 p2 p1 p0 : Vec F S1x1024x128 .bf16) (y : S4x1024x128.Idx) :
    ∃ pc ∈ ([⟨rHead3, p3⟩, ⟨rHead2, p2⟩, ⟨rHead1, p1⟩, ⟨rHead0, p0⟩] : List (View.Piece (Elt F) S4x1024x128 .bf16)), y ∈ pc.1.set :=
  View.cover_of_tiled [⟨rHead3, p3⟩, ⟨rHead2, p2⟩, ⟨rHead1, p1⟩, ⟨rHead0, p0⟩] S1x1024x128.size (by rfl) y

/-- The block of similarities the second kernel leaves, from the row-tile block `a` and the column-tile block `b` of
    normalised rows: one store of the whole block. -/
def attnBlock (a b : Vec F S4x1024x128 .bf16) : Vec F S1024x1024 .f32 :=
  View.canon [⟨rSims, k1_pay1 (k1_pay2 (View.ld a rHead0) (View.ld b rHead0) (View.ld a rHead1) (View.ld b rHead1)
    (View.ld a rHead2) (View.ld b rHead2) (View.ld a rHead3) (View.ld b rHead3))⟩]

/-- The one store fills the block. -/
theorem attnBlock_cover (p0 : Vec F S1024x1024 .f32) (y : S1024x1024.Idx) :
    ∃ pc ∈ ([⟨rSims, p0⟩] : List (View.Piece (Elt F) S1024x1024 .f32)), y ∈ pc.1.set :=
  View.cover_of_tiled [⟨rSims, p0⟩] S1024x1024.size (by rfl) y

end Cert.KernelIdeal.Hand

end
-- ==== Proof.KernelIdeal.Data.lean ====
/-
  The two pipelines' proof data, at the contents `V` the buffers hold when a kernel is entered.

  A window's block at a grid point is the part of its array the point's index map selects. After the body has run at
  a point, an input window's staging buffer still holds its block and the output window's holds the body's block
  (`normBlock`, `attnBlock`) of the input blocks at that point.

  The second kernel reads ONE array, the normalised rows, through two windows (row tile `i`, row tile `j`). Neither
  window writes it, so each holds half of it: the proof data give the two input windows the two halves of the full
  share and the output window the whole of its own array.
-/
import proofs.«134704_j29703993819992_1_alg».proof.Proof.KernelIdeal.Stores
import proofs.«134704_j29703993819992_1_alg».proof.Proof.Gen.KernelIdeal.Launch
import proofs.«134704_j29703993819992_1_alg».proof.Proof.Gen.KernelIdeal.Points
import Idealize.ShloMosaic.Lib.Pipeline.FrameBody

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- Window `w`'s block at point `t` of the first kernel's grid, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of the second kernel's grid. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first kernel's proof data: the arrays as found; after the body the inputs' buffers at their blocks and the
    output's at `normBlock` of them; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => normBlock (iblk0 V c 0 t) (iblk0 V c 1 t)
  Φ _ := Pipeline.ΦA spec0 c
  q _ := fullShare
  owed _ := 0

/-- The second kernel's proof data: the same, with `attnBlock`, the two input windows each holding one half of the
    array they share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => attnBlock (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = normBlock (iblk0 V c 0 t) (iblk0 V c 1 t) := by dsimp only [dat0]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = attnBlock (iblk1 V c 0 t) (iblk1 V c 1 t) := by dsimp only [dat1]

end Cert.KernelIdeal.Hand

end
-- ==== Proof.KernelIdeal.NormBody.lean ====
/-
  The first kernel's body, run on whole staging buffers: from the block of embedding rows and the weight table it
  leaves the inputs as they were and the output buffer at `normBlock` of them.
-/
import proofs.«134704_j29703993819992_1_alg».proof.Proof.KernelIdeal.Stores
import proofs.«134704_j29703993819992_1_alg».proof.Proof.Gen.KernelIdeal.Launch
import proofs.«134704_j29703993819992_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The normalising body on whole staging buffers: the inputs' at contents `x0`, `x1` and the output's at anything, it
    runs to the continuation holding the inputs' as they were and the output's at `normBlock x0 x1`. -/
theorem sound_norm (c : Dev nD) (E : Set ℕ) (i : grid0.Coords)
    (arg1 : Memref sig .tc .vmem S1024x128 .f32) (harg1 : arg1.IsWhole) (arg2 : Memref sig .tc .vmem S4x128 .f32) (harg2 : arg2.IsWhole)
    (arg3 : Memref sig .tc .vmem S4x1024x128 .bf16) (harg3 : arg3.IsWhole)
    (x0 : Vec F S1024x128 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (normBlock x0 x1)) -∗ K ⟨⟩))
      ⊢ wp frame (wpE (defs₀ (F := F)) Variants.none c none) E (cc0_normalize_kernel i arg1 harg1 arg2 harg2 arg3 harg3) K := by
  -- The body is its sequence of memory operations over the named payloads: two whole loads of the inputs, then for each
  -- head a load of the output slice (its value unused) and one store of the head's normalised rows into that slice.
  sl_unfold [cc0_normalize_kernel, k0_part1]
  unfold owns
  iintro ⟨⟨%f0, %hf0, H0⟩, ⟨%f1, %hf1, H1⟩, ⟨%d, %f, -, H⟩, Hk⟩
  subst hf0; subst hf1
  sl_exec
  sl_step
  iapply Hk
  -- The inputs are only read: each still holds the contents it held.
  isplitl [H0]
  · iexists f0; isplitr; · ipureintro; rfl
    iexact H0
  isplitl [H1]
  · iexists f1; isplitr; · ipureintro; rfl
    iexact H1
  -- The output holds its old contents overwritten by the four stores. The four slices tile the block, so what is read
  -- back is determined by the stores alone: at an index of slice `p`, the payload stored to slice `p`.
  iexists _; isplitr
  swap; · iexact H
  ipureintro
  rw [View.read_writes_eq_canon _ _ _ (normBlock_cover _ _ _ _)]
  unfold normBlock
  sl_unfold_run_names
  -- Each payload is taken at the whole-block reads of the two inputs, which is how `normBlock` states them.
  rfl

end Cert.KernelIdeal.Hand

end
-- ==== Proof.KernelIdeal.AttnBody.lean ====
/-
  The second kernel's body, run on whole staging buffers: from the two blocks of normalised rows it leaves the inputs
  as they were and the output buffer at `attnBlock` of them.
-/
import proofs.«134704_j29703993819992_1_alg».proof.Proof.KernelIdeal.Stores
import proofs.«134704_j29703993819992_1_alg».proof.Proof.Gen.KernelIdeal.Launch
import proofs.«134704_j29703993819992_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The similarity body on whole staging buffers: the inputs' at contents `a`, `b` and the output's at anything, it runs
    to the continuation holding the inputs' as they were and the output's at `attnBlock a b`. -/
theorem sound_attn (c : Dev nD) (E : Set ℕ) (i : grid1.Coords)
    (arg2 : Memref sig .tc .vmem S4x1024x128 .bf16) (harg2 : arg2.IsWhole) (arg3 : Memref sig .tc .vmem S4x1024x128 .bf16) (harg3 : arg3.IsWhole)
    (arg4 : Memref sig .tc .vmem S1024x1024 .f32) (harg4 : arg4.IsWhole)
    (a b : Vec F S4x1024x128 .bf16) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b
            ∗ owns (c : Thread nD τ) arg4 fullShare (attnBlock a b)) -∗ K ⟨⟩))
      ⊢ wp frame (wpE (defs₀ (F := F)) Variants.none c none) E (cc1_attn_kernel i arg2 harg2 arg3 harg3 arg4 harg4) K := by
  simp only [cc1_attn_kernel_eq_skeleton]; unfold cc1_attn_kernel_skel
  simp only [k1_part1_eq_skeleton]; unfold k1_part1_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (attnBlock_cover _)

end Cert.KernelIdeal.Hand

end
-- ==== Proof.KernelIdeal.Oblig.lean ====
/-
  The body obligation of each pipeline: at every grid point, from the pipeline's invariant and every window's current
  staging buffer at what the proof data say it holds before the body, the kernel body runs to the invariant and every
  buffer at what the proof data say it holds after.

  An input window's buffer holds its block at every point, whether or not the block was fetched there: where it was
  not, the block index has not moved since the point before, and the body left the block in place. So the body is
  run on the input blocks (`sound_norm`, `sound_attn`), and what it leaves in the output buffer is the proof data's
  `after` by definition.
-/
import proofs.«134704_j29703993819992_1_alg».proof.Proof.KernelIdeal.Data
import proofs.«134704_j29703993819992_1_alg».proof.Proof.KernelIdeal.NormBody
import proofs.«134704_j29703993819992_1_alg».proof.Proof.KernelIdeal.AttnBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers hold their blocks -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The first kernel -/

/-- What the normalising body is called with at point `t`, -/
def normPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def normPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem norm_at (c : Dev nD) (t : Fin cfg0.N) :
    normPre V c t ⊢ wp frame (wpE (defs₀ (F := F)) Variants.none c none) Set.univ (bodyAt0 t) (fun _ => normPost V c t) := by
  unfold normPre normPost bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_norm c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The first pipeline's body obligation. -/
theorem norm_obligation (c : Dev nD) : BodyObligation (dat0 (F := F) V c) (defs₀ (F := F)) Variants.none () Set.univ := fun t => by
  rw [bigSep_W0, bigSep_W0]
  exact norm_at V c t

/-! ## The second kernel -/

def attnPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def attnPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem attn_at (c : Dev nD) (t : Fin cfg1.N) :
    attnPre V c t ⊢ wp frame (wpE (defs₀ (F := F)) Variants.none c none) Set.univ (bodyAt1 t) (fun _ => attnPost V c t) := by
  unfold attnPre attnPost bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_attn c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The second pipeline's body obligation. -/
theorem attn_obligation (c : Dev nD) : BodyObligation (dat1 (F := F) V c) (defs₀ (F := F)) Variants.none () Set.univ := fun t => by
  rw [bigSep_W1, bigSep_W1]
  exact attn_at V c t

end Cert.KernelIdeal.Hand

end
-- ==== Proof.KernelIdeal.Shares.lean ====
/-
  The second kernel's arrays at its entry and at its exit.

  Its three windows stand on two buffers: the array of normalised rows, read through both input windows, and the array
  of similarities, written through the output window. At entry the normalised rows' buffer, held whole, is split in
  two halves, one per input window; neither window writes it, so at the exit both halves hold what was found, and
  they join back into the whole buffer at those contents. The similarities' buffer passes whole to the output window
  and comes back at what the write-backs leave.
-/
import proofs.«134704_j29703993819992_1_alg».proof.Proof.KernelIdeal.Data
import Idealize.ShloMosaic.Lib.Pipeline.Kit
import Idealize.ShloMosaic.Lib.Pipeline.Cells

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two buffers behind the second kernel's three windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] (by decide) (by decide) _

/-- The second kernel's arrays, window by window: the two halves of the normalised rows' buffer and the whole of the
    similarities'. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W1, (arr_whole1 0).set_eq_univ, (arr_whole1 2).set_eq_univ]
  rfl

/-- ENTRY: the normalised rows' buffer split between the two input windows. -/
theorem arrays1_enter (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hu, Hs⟩
  ihave Hh := (pointsTo_share (PosShare.mem_left_op_right fullShare)).1 $$ Hu
  icases Hh with ⟨Hl, Hr⟩
  isplitl [Hl]; · iexact Hl
  isplitl [Hr]; · iexact Hr
  iexact Hs

/-- EXIT: the two halves, both at what was found, joined; the similarities' buffer at what the write-backs leave. -/
theorem arrays1_exit (c : Dev nD) (W : (b : Ref sig .tc) → Buf (Elt F) ((c : Thread nD τ).loc b))
    (h0 : W main_v0 = V c main_v0) (h1 : W main_v1 = (dat1 V c).arrAt 2 cfg1.N) :
    ((dat1 V c).arrays ((dat1 V c).arrAt · cfg1.N) : sProp 𝕄)
      ⊢ Pipeline.arrBufs (Ix := Unit) (Name := ℕ) (U := UR sig nD τ) (Lvl := ℕ) spec1 c W := by
  rw [arrBufs1_eq, arrays1_eq, h0, h1, (dat1 V c).arrAt_in 0 rfl, (dat1 V c).arrAt_in 1 rfl, A_eq1, A_eq1]
  iintro ⟨Hl, Hr, Hs⟩
  isplitl [Hl Hr]
  · iapply (pointsTo_share (PosShare.mem_left_op_right fullShare)).2
    isplitl [Hl]; · iexact Hl
    iexact Hr
  iexact Hs

end Cert.KernelIdeal.Hand

end
-- ==== Proof.KernelIdeal.Run.lean ====
/-
  The run of the whole program: the launch, the first kernel, the second kernel, the return.

  Between two items a core holds its four unscoped buffers whole: the two arguments, the array of normalised rows and
  the array of similarities. At launch they hold the launch memory (`W0`). The first kernel changes only the
  normalised rows, to what its write-backs leave (`W1`); the second only the similarities, likewise (`W2`). Each
  kernel is one region of the run: entered, its arrays are taken out of the held buffers (for the second kernel the
  normalised rows' buffer split between its two reading windows) and the remaining buffers bypass it; left, the arrays
  are put back at their final contents. Every weakly fair execution therefore terminates, and the final memory holds
  each unscoped buffer at `W2`: the arguments as launched, the similarities at the second pipeline's last contents.
-/
import proofs.«134704_j29703993819992_1_alg».proof.Proof.KernelIdeal.Oblig
import proofs.«134704_j29703993819992_1_alg».proof.Proof.KernelIdeal.Shares
import proofs.«134704_j29703993819992_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- After the first kernel: its arrays at what the pipeline leaves, every other buffer as launched. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem arr0_eq (c : Dev nD) (w : Fin cfg0.W) : (dat0 (U0 m ρ) c).arrAt w cfg0.N = U1 m ρ c (Pipeline.arrRef spec0 w) :=
  (W1_arr m ρ c w).symm
theorem rest0_eq (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the second kernel: the similarities at what its pipeline leaves, every other buffer as it found it. -/
def W2 (c : Dev nD) : Valuation τ sig (Elt F) :=
  Function.update (W1 m ρ c) (Proc.devRef .tc main_v1) ((dat1 (U1 m ρ) c).arrAt 2 cfg1.N)
abbrev U2 : (c : Dev nD) → (b : Ref sig .tc) → Buf (Elt F) ((c : Thread nD τ).loc b) := fun c b => W2 m ρ c b
theorem W2_sims (c : Dev nD) : W2 m ρ c (Proc.devRef .tc main_v1) = (dat1 (U1 m ρ) c).arrAt 2 cfg1.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..

/-! ## What each buffer holds at the end -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl

/-- The second kernel finds the arguments as launched and the normalised rows as the first kernel left them. -/
theorem U1_main_arg0 (c : Dev nD) : U1 m ρ c main_arg0 = m ((c : Thread nD τ).loc main_arg0) :=
  (W1_arr m ρ c 0).trans (((dat0 (U0 m ρ) c).arrAt_in 0 rfl _).trans (A_eq0 (U0 m ρ) c 0))
theorem U1_main_v0 (c : Dev nD) : U1 m ρ c main_v0 = (dat0 (U0 m ρ) c).arrAt 2 cfg0.N := W1_arr m ρ c 2

/-! ## The proof data family and the thread state -/

abbrev adm : (p : Fin 2) → (pcfgs (F := F) p).Adm := fun p => (cfgs p).toPCfg_adm

/-- Each pipeline's proof data at what its kernel finds. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U1 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two kernels as regions -/

set_option backward.isDefEq.respectTransparency.types false in
/-- The first kernel: entered from the buffers at `W0`, left at `W1`. Its three arrays are distinct buffers, each held
    whole. -/
def normRegion : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (norm_obligation (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (arr0_eq m ρ c) (rest0_eq m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The buffers that bypass the second kernel, the two arguments, hold the same at `W1` and at `W2`. -/
theorem rest1_eq (c : Dev nD) :
    (Pipeline.unscopedRest (Ix := Unit) (Name := ℕ) (U := UR sig nD τ) (Lvl := ℕ) spec1 c (U1 m ρ c) : sProp 𝕄)
      = Pipeline.unscopedRest (Ix := Unit) (Name := ℕ) (U := UR sig nD τ) (Lvl := ℕ) spec1 c (U2 m ρ c) := by
  rw [unscopedRest1_eq, unscopedRest1_eq,
    show U2 m ρ c main_arg0 = U1 m ρ c main_arg0 from W2_of_ne m ρ c main_arg0 (by decide),
    show U2 m ρ c main_arg1 = U1 m ρ c main_arg1 from W2_of_ne m ρ c main_arg1 (by decide)]

set_option backward.isDefEq.respectTransparency.types false in
/-- The second kernel: entered from the buffers at `W1`, left at `W2`. Its two reading windows share the normalised
    rows' buffer, half each (`arrays1_enter`, `arrays1_exit`). -/
def attnRegion : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (attn_obligation (U1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit : (StableHlo.held (c : Thread nD τ) (Pipeline.ucRefs τ sig) (W1 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (U1 m ρ c)) := by
      rw [← Pipeline.unscopedBufs_held (Ix := Unit) (Name := ℕ) (U := UR sig nD τ) (Lvl := ℕ) c (W1 m ρ c),
        Pipeline.unscopedBufs_split₀ (cfgs) 1 winFacts₀1.arr_unscoped c]
      exact sep_mono (arrays1_enter (U1 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (U1 m ρ c))
        ⊢ (StableHlo.held (c : Thread nD τ) (Pipeline.ucRefs τ sig) (W2 m ρ c) : sProp 𝕄) := by
      rw [← Pipeline.unscopedBufs_held (Ix := Unit) (Name := ℕ) (U := UR sig nD τ) (Lvl := ℕ) c (W2 m ρ c),
        Pipeline.unscopedBufs_split₀ (cfgs) 1 winFacts₀1.arr_unscoped c, rest1_eq m ρ c]
      exact sep_mono (arrays1_exit (U1 m ρ) c (U2 m ρ c) (W2_of_ne m ρ c main_v0 (by decide)) (W2_sims m ρ c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's two items, in order. -/
abbrev segs : List (Pipeline.Seg (pcfgs (F := F)) adm (pdats m ρ) () defs₀ 𝒱₀ L lv) :=
  [ .region (normRegion m ρ), .region (attnRegion m ρ) ]

theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds every unscoped buffer at `W2`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every weakly fair execution terminates and leaves the two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m ρ c),
     (h c _ (mem_uc main_arg1 (by decide))).trans (W2_main_arg1 m ρ c)⟩) (run_main m ρ)

/-- The run with the similarities named: they end at the second pipeline's last contents, the pipeline having found
    the normalised rows at the first pipeline's last contents and the arguments as launched. -/
theorem run_sims : θ_run defs (onTc (τ := τ) (main (F := F))) ⟨m, fun _ => 0, ρ⟩ (fun r => ∀ c : Dev nD,
      r.2.mem ((c.tc : Thread nD τ).loc main_v1) = (dat1 (U1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_sims m ρ c),
     (h c _ (mem_uc main_arg0 (by decide))).trans (W2_main_arg0 m ρ c),
     (h c _ (mem_uc main_arg1 (by decide))).trans (W2_main_arg1 m ρ c)⟩) (run_main m ρ)

end Cert.KernelIdeal.Hand

end
-- ==== Proof.Spec.lean ====
/-
  The function both programs compute, written once over the extended reals.

  For embeddings `x : [8192, 128]` and per-head weights `w : [4, 128]`:
    * `scaled x w p n d = x[n, d] · w[p, d]`, row `n` of the embeddings reweighted for head `p`;
    * `rowNorm x w p n = max (√(Σ_d scaled²)) ε`, the Euclidean norm of that row clamped below by the
      single-precision constant `ε` (the word `0x2B8CBCCC`, about 1e-12, the same word in both programs);
    * `unitRow x w p n d = scaled / rowNorm`, the normalised row;
    * `headDot x w p n m = Σ_d unitRow[p, n, d] · unitRow[p, m, d]`, the cosine similarity of rows `n` and `m`
      under head `p`;
    * `meanCos x w [n, m] = (Σ_p headDot p n m) / 4`, the mean over the four heads.
  The array of normalised rows, `unitRows x w : [4, 8192, 128]`, is what the first of the two kernels leaves behind.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Emb : Shape := ⟨2, ![8192, 128]⟩
abbrev Wts : Shape := ⟨2, ![4, 128]⟩
abbrev Units : Shape := ⟨3, ![4, 8192, 128]⟩
abbrev Sims : Shape := ⟨2, ![8192, 8192]⟩

/-- The clamp under the norm: the single-precision word both programs print. -/
abbrev eps : EReal := Ideal.ofBits .f32 0x2B8CBCCC#32

/-- Row `n` of the embeddings reweighted for head `p`, at column `d`. -/
def scaled (x : Emb.Idx → EReal) (w : Wts.Idx → EReal) (p : Fin 4) (n : Fin 8192) (d : Fin 128) : EReal :=
  x (ix2 n d) * w (ix2 p d)

/-- The sum of the squares of that row. -/
def sumSq (x : Emb.Idx → EReal) (w : Wts.Idx → EReal) (p : Fin 4) (n : Fin 8192) : EReal :=
  ∑ d : Fin 128, scaled x w p n d * scaled x w p n d

/-- Its Euclidean norm, clamped below by `eps`. -/
def rowNorm (x : Emb.Idx → EReal) (w : Wts.Idx → EReal) (p : Fin 4) (n : Fin 8192) : EReal :=
  max (Ideal.sqrt (sumSq x w p n)) eps

/-- The normalised row. -/
def unitRow (x : Emb.Idx → EReal) (w : Wts.Idx → EReal) (p : Fin 4) (n : Fin 8192) (d : Fin 128) : EReal :=
  Ideal.div (scaled x w p n d) (rowNorm x w p n)

/-- All normalised rows as one array `[4, 8192, 128]`. -/
def unitRows (x : Emb.Idx → EReal) (w : Wts.Idx → EReal) : Units.Idx → EReal :=
  fun i => unitRow x w (i 0) (i 1) (i 2)

/-- The cosine similarity of rows `n` and `m` under head `p`, from an array of normalised rows. -/
def headDot (u : Units.Idx → EReal) (p : Fin 4) (n m : Fin 8192) : EReal :=
  ∑ d : Fin 128, u (ix3 p n d) * u (ix3 p m d)

/-- The mean over the heads as the reference takes it: the sum over the heads divided by four. -/
def meanOfHeads (u : Units.Idx → EReal) : Sims.Idx → EReal :=
  fun i => Ideal.div (∑ p : Fin 4, headDot u p (i 0) (i 1)) (Ideal.ofBits .f32 0x40800000#32)

/-- The same as the second kernel takes it: the heads added one after the other from zero, then a product with
    one quarter (the word `0x3E800000`). -/
def quarterOfHeads (u : Units.Idx → EReal) : Sims.Idx → EReal :=
  fun i => ((((0 + headDot u 0 (i 0) (i 1)) + headDot u 1 (i 0) (i 1)) + headDot u 2 (i 0) (i 1)) + headDot u 3 (i 0) (i 1))
    * Ideal.ofBits .f32 0x3E800000#32

/-- The mean cosine similarity of the reweighted embeddings. -/
def meanCos (x : Emb.Idx → EReal) (w : Wts.Idx → EReal) : Sims.Idx → EReal :=
  meanOfHeads (unitRows x w)

end Cert.Spec

end
-- ==== Proof.NormValue.lean ====
/-
  What the first kernel leaves in the array of normalised rows, at the ideal values: block `t` of the array is
  `normBlock` of rows `1024 t … 1024 t + 1023` of the embeddings and the weight table, the eight blocks tile the array,
  and at every index the stored payload is the specification's `unitRow`.
-/
import proofs.«134704_j29703993819992_1_alg».proof.Proof.KernelIdeal.Data
import proofs.«134704_j29703993819992_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The layout operations of one head's arithmetic, read at an index -/

/-- One weight row repeated down the 1024 rows reads, at row `r` and column `d`, the row's entry `d`. -/
private theorem rowDown_apply (wr : FVec Ideal S1x128 .f32) (r : Fin 1024) (d : Fin 128) :
    broadcastTo S1024x128 wr broadcasts_S1x128_S1024x128 (ix2 r d) = wr (ix2 0 d) :=
  broadcastTo_apply wr _ (ix2 r d) (ix2 0 d) fun a => by
    match a with
    | ⟨0, _⟩ => rfl
    | ⟨1, _⟩ => rfl

/-- A column of per-row values repeated along the 128 columns reads, at row `r`, the row's value. -/
private theorem colAcross_apply (col : FVec Ideal S1024x1 .f32) (r : Fin 1024) (d : Fin 128) :
    broadcastTo S1024x128 col broadcasts_S1024x1_S1024x128 (ix2 r d) = col (ix2 r 0) :=
  broadcastTo_apply col _ (ix2 r d) (ix2 r 0) fun a => by
    match a with
    | ⟨0, _⟩ => rfl
    | ⟨1, _⟩ => rfl

/-- A vector of per-row values viewed as a column keeps each row's value. -/
private theorem asCol_apply (v : FVec Ideal S1024 .f32) (r : Fin 1024) :
    shapeCast S1024x1 v shapeCasts_S1024_S1024x1 (ix2 r 0) = v (ix1 r) :=
  shapeCast_apply v _ (ix2 r 0) (ix1 r) (by
    rw [Shape.rowMajor_val_one, Shape.rowMajor_val_two]
    show r.val = r.val * 1 + 0
    omega)

/-- The sum along the columns of a block of rows, from the zero word, is each row's sum. -/
private theorem laneSum_apply (m : FVec Ideal S1024x128 .f32) (r : Fin 1024) :
    multiReduction (F := Ideal) .add [1] S1024 m 0x00000000#32 reduces_S1024x128_S1024 (.inl rfl) rfl (ix1 r)
      = ∑ d : Fin 128, m (ix2 r d) := by
  refine (Ideal.multiReduction_add_single m _ reduces_S1024x128_S1024 (.inl rfl) rfl (ix1 r)).trans ?_
  refine Finset.sum_congr rfl fun d _ => congrArg m ?_
  funext a
  match a with
  | ⟨0, _⟩ => rfl
  | ⟨1, _⟩ => rfl

/-- A block of rows stored as one head's slice `[1, 1024, 128]` keeps row and column. -/
private theorem asSlice_apply (v : FVec Ideal S1024x128 .bf16) (z : Fin 1) (r : Fin 1024) (d : Fin 128) :
    shapeCast S1x1024x128 v shapeCasts_S1024x128_S1x1024x128 (ix3 z r d) = v (ix2 r d) :=
  shapeCast_apply v _ (ix3 z r d) (ix2 r d) (by
    rw [Shape.rowMajor_val_two, Shape.rowMajor_val_three]
    show r.val * 128 + d.val = (z.val * 1024 + r.val) * 128 + d.val
    have := z.isLt
    omega)

/-- Row `p` of the weight table, sliced out, flattened and made a row again, reads the table's entry `(p, d)`. -/
private theorem weightRow_apply (w : Vec Ideal S4x128 .f32) (off : Fin S4x128.rank → Nat) (h : S4x128.Slices off S1x128)
    (p : Fin 4) (h0 : off 0 = p.val) (h1 : off 1 = 0) (d : Fin 128) :
    shapeCast S1x128 (shapeCast S128 (extractStridedSlice S1x128 off w h) shapeCasts_S1x128_S128) shapeCasts_S128_S1x128 (ix2 0 d)
      = w (ix2 p d) := by
  rw [shapeCast_shapeCast]
  exact extractStridedSlice_apply off w h (ix2 0 d) (ix2 p d) fun a => by
    match a with
    | ⟨0, _⟩ => show p.val = off 0 + 0; omega
    | ⟨1, _⟩ => show d.val = off 1 + d.val; omega

/-! ## One head's arithmetic -/

/-- Row `r` of a block of embedding rows reweighted for head `p`, at column `d`. -/
private def blkScaled (x : Vec Ideal S1024x128 .f32) (w : Vec Ideal S4x128 .f32) (p : Fin 4) (r : Fin 1024) (d : Fin 128) : EReal :=
  x (ix2 r d) * w (ix2 p d)

/-- That row normalised: divided by its Euclidean norm clamped below by `ε`. -/
private def blkUnit (x : Vec Ideal S1024x128 .f32) (w : Vec Ideal S4x128 .f32) (p : Fin 4) (r : Fin 1024) (d : Fin 128) : EReal :=
  Ideal.div (blkScaled x w p r d)
    (max (Ideal.sqrt (∑ d' : Fin 128, blkScaled x w p r d' * blkScaled x w p r d')) Cert.Spec.eps)

/-- What every head stores, as a function of the block of embedding rows and of the head's weight row. -/
private def headRows (x : Vec Ideal S1024x128 .f32) (wr : FVec Ideal S1x128 .f32) : FVec Ideal S1x1024x128 .bf16 :=
  shapeCast S1x1024x128
    (truncf .bf16
      (divf (mulf x (broadcastTo S1024x128 wr broadcasts_S1x128_S1024x128))
        (broadcastTo S1024x128
          (maximumf
            (sqrt (shapeCast S1024x1
              (multiReduction (F := Ideal) .add [1] S1024
                (mulf (mulf x (broadcastTo S1024x128 wr broadcasts_S1x128_S1024x128))
                  (mulf x (broadcastTo S1024x128 wr broadcasts_S1x128_S1024x128)))
                0x00000000#32 reduces_S1024x128_S1024 (.inl rfl) rfl)
              shapeCasts_S1024_S1024x1))
            (broadcast S1024x1 (Scalar.ofBits (F := Ideal) .f32 0x2B8CBCCC#32)))
          broadcasts_S1024x1_S1024x128))
      bitsLt_bf16_f32)
    shapeCasts_S1024x128_S1x1024x128

/-- At slice index `(0, r, d)` the stored value is row `r` reweighted by the head's weights and normalised. -/
private theorem headRows_apply (x : Vec Ideal S1024x128 .f32) (wr : FVec Ideal S1x128 .f32) (w : Vec Ideal S4x128 .f32) (p : Fin 4)
    (hw : ∀ d : Fin 128, wr (ix2 0 d) = w (ix2 p d)) (z : Fin 1) (r : Fin 1024) (d : Fin 128) :
    headRows x wr (ix3 z r d) = blkUnit x w p r d := by
  have e1 : ∀ d' : Fin 128, mulf x (broadcastTo S1024x128 wr broadcasts_S1x128_S1024x128) (ix2 r d') = blkScaled x w p r d' :=
    fun d' => (mulf_apply _ _ _).trans (by rw [rowDown_apply, hw]; rfl)
  have e2 : multiReduction (F := Ideal) .add [1] S1024
        (mulf (mulf x (broadcastTo S1024x128 wr broadcasts_S1x128_S1024x128))
          (mulf x (broadcastTo S1024x128 wr broadcasts_S1x128_S1024x128)))
        0x00000000#32 reduces_S1024x128_S1024 (.inl rfl) rfl (ix1 r)
      = ∑ d' : Fin 128, blkScaled x w p r d' * blkScaled x w p r d' :=
    (laneSum_apply _ r).trans (Finset.sum_congr rfl fun d' _ => (mulf_apply _ _ _).trans (by rw [e1]))
  unfold headRows
  refine (asSlice_apply _ z r d).trans ?_
  show Ideal.div (mulf x (broadcastTo S1024x128 wr broadcasts_S1x128_S1024x128) (ix2 r d))
      (broadcastTo S1024x128 _ broadcasts_S1024x1_S1024x128 (ix2 r d)) = _
  unfold blkUnit
  refine congrArg₂ Ideal.div (e1 d) ?_
  refine (colAcross_apply _ r d).trans ?_
  refine (maximumf_apply _ _ _).trans ?_
  refine congrArg₂ max ?_ rfl
  show Ideal.sqrt (shapeCast S1024x1 _ shapeCasts_S1024_S1024x1 (ix2 r 0)) = _
  rw [asCol_apply, e2]

/-! ## The four stored slices and the block they make -/

/-- Each head's stored slice is `headRows` of the block of embedding rows and of the head's row of the weight table. -/
private theorem pay_head0 (x : Vec Ideal S1024x128 .f32) (w : Vec Ideal S4x128 .f32) :
    k0_pay3 (F := Ideal) x w = headRows x (shapeCast S1x128 (shapeCast S128
      (extractStridedSlice S1x128 ![0, 0] w slices_S4x128_o0_0_S1x128) shapeCasts_S1x128_S128) shapeCasts_S128_S1x128) := rfl
private theorem pay_head1 (x : Vec Ideal S1024x128 .f32) (w : Vec Ideal S4x128 .f32) :
    k0_pay4 (F := Ideal) x w = headRows x (shapeCast S1x128 (shapeCast S128
      (extractStridedSlice S1x128 ![1, 0] w slices_S4x128_o1_0_S1x128) shapeCasts_S1x128_S128) shapeCasts_S128_S1x128) := rfl
private theorem pay_head2 (x : Vec Ideal S1024x128 .f32) (w : Vec Ideal S4x128 .f32) :
    k0_pay1 (F := Ideal) (k0_pay5 x w) (k0_pay6 x w) = headRows x (shapeCast S1x128 (shapeCast S128
      (extractStridedSlice S1x128 ![2, 0] w slices_S4x128_o2_0_S1x128) shapeCasts_S1x128_S128) shapeCasts_S128_S1x128) := rfl
private theorem pay_head3 (x : Vec Ideal S1024x128 .f32) (w : Vec Ideal S4x128 .f32) :
    k0_pay2 (F := Ideal) x w = headRows x (shapeCast S1x128 (shapeCast S128
      (extractStridedSlice S1x128 ![3, 0] w slices_S4x128_o3_0_S1x128) shapeCasts_S1x128_S128) shapeCasts_S128_S1x128) := rfl

/-- So at `(0, r, d)` head `p`'s slice holds row `r` reweighted for head `p` and normalised. -/
private theorem pay_head0_apply (x : Vec Ideal S1024x128 .f32) (w : Vec Ideal S4x128 .f32) (z : Fin 1) (r : Fin 1024) (d : Fin 128) :
    k0_pay3 (F := Ideal) x w (ix3 z r d) = blkUnit x w 0 r d :=
  (congrFun (pay_head0 x w) _).trans (headRows_apply x _ w 0 (fun d' => weightRow_apply w _ _ 0 rfl rfl d') z r d)
private theorem pay_head1_apply (x : Vec Ideal S1024x128 .f32) (w : Vec Ideal S4x128 .f32) (z : Fin 1) (r : Fin 1024) (d : Fin 128) :
    k0_pay4 (F := Ideal) x w (ix3 z r d) = blkUnit x w 1 r d :=
  (congrFun (pay_head1 x w) _).trans (headRows_apply x _ w 1 (fun d' => weightRow_apply w _ _ 1 rfl rfl d') z r d)
private theorem pay_head2_apply (x : Vec Ideal S1024x128 .f32) (w : Vec Ideal S4x128 .f32) (z : Fin 1) (r : Fin 1024) (d : Fin 128) :
    k0_pay1 (F := Ideal) (k0_pay5 x w) (k0_pay6 x w) (ix3 z r d) = blkUnit x w 2 r d :=
  (congrFun (pay_head2 x w) _).trans (headRows_apply x _ w 2 (fun d' => weightRow_apply w _ _ 2 rfl rfl d') z r d)
private theorem pay_head3_apply (x : Vec Ideal S1024x128 .f32) (w : Vec Ideal S4x128 .f32) (z : Fin 1) (r : Fin 1024) (d : Fin 128) :
    k0_pay2 (F := Ideal) x w (ix3 z r d) = blkUnit x w 3 r d :=
  (congrFun (pay_head3 x w) _).trans (headRows_apply x _ w 3 (fun d' => weightRow_apply w _ _ 3 rfl rfl d') z r d)

private theorem zeros2 : (![0, 0] : Fin 2 → Nat) = fun _ => 0 := funext fun a => by fin_cases a <;> rfl

/-- The block's value at an index, by coordinates. -/
private def blkUnits (x : Vec Ideal S1024x128 .f32) (w : Vec Ideal S4x128 .f32) : Vec Ideal S4x1024x128 .bf16 :=
  fun y => blkUnit x w (y 0) (y 1) (y 2)

/-- Head `p`'s slice sits in the block at `(p, r, d)`. -/
private theorem head_emb (off : Fin S4x1024x128.rank → Nat) (inb : ∀ a, off a + S1x1024x128.size a ≤ S4x1024x128.size a)
    (p : Fin 4) (h0 : off 0 = p.val) (h1 : off 1 = 0) (h2 : off 2 = 0) (z : Fin 1) (r : Fin 1024) (d : Fin 128) :
    (Rect.unit (s := S4x1024x128) off S1x1024x128.size inb).emb (ix3 z r d) = ix3 p r d := by
  funext a
  apply Fin.ext
  have hz := z.isLt
  match a with
  | ⟨0, _⟩ => show off 0 + 1 * z.val = p.val; omega
  | ⟨1, _⟩ => show off 1 + 1 * r.val = r.val; omega
  | ⟨2, _⟩ => show off 2 + 1 * d.val = d.val; omega

/-- THE BLOCK the first kernel leaves holds, at `(p, r, d)`, row `r` of its embedding rows reweighted for head `p` and
    normalised: each index lies in one head's slice, and that slice's store holds the value. -/
private theorem normBlock_apply (x : Vec Ideal S1024x128 .f32) (w : Vec Ideal S4x128 .f32) (y : S4x1024x128.Idx) :
    normBlock x w y = blkUnits x w y := by
  unfold normBlock
  rw [View.ld_unit_zero (S := S1024x128) zeros2, View.ld_unit_zero (S := S4x128) zeros2]
  refine View.canon_apply_of_pieces (Val := Elt Ideal) (blkUnits x w) _ ?_ y (normBlock_cover _ _ _ _ y)
  intro pc hpc
  simp only [List.mem_cons, List.not_mem_nil, or_false] at hpc
  rcases hpc with rfl | rfl | rfl | rfl
  · intro j
    obtain ⟨z, r, d, rfl⟩ : ∃ (z : Fin 1) (r : Fin 1024) (d : Fin 128), j = ix3 z r d := ⟨j 0, j 1, j 2, eq_ix3 j⟩
    refine (pay_head3_apply x w z r d).trans ?_
    exact (congrArg (blkUnits x w) (head_emb _ inb_S4x1024x128_S1x1024x128_3_0_0 3 rfl rfl rfl z r d)).symm
  · intro j
    obtain ⟨z, r, d, rfl⟩ : ∃ (z : Fin 1) (r : Fin 1024) (d : Fin 128), j = ix3 z r d := ⟨j 0, j 1, j 2, eq_ix3 j⟩
    refine (pay_head2_apply x w z r d).trans ?_
    exact (congrArg (blkUnits x w) (head_emb _ inb_S4x1024x128_S1x1024x128_2_0_0 2 rfl rfl rfl z r d)).symm
  · intro j
    obtain ⟨z, r, d, rfl⟩ : ∃ (z : Fin 1) (r : Fin 1024) (d : Fin 128), j = ix3 z r d := ⟨j 0, j 1, j 2, eq_ix3 j⟩
    refine (pay_head1_apply x w z r d).trans ?_
    exact (congrArg (blkUnits x w) (head_emb _ inb_S4x1024x128_S1x1024x128_1_0_0 1 rfl rfl rfl z r d)).symm
  · intro j
    obtain ⟨z, r, d, rfl⟩ : ∃ (z : Fin 1) (r : Fin 1024) (d : Fin 128), j = ix3 z r d := ⟨j 0, j 1, j 2, eq_ix3 j⟩
    refine (pay_head0_apply x w z r d).trans ?_
    exact (congrArg (blkUnits x w) (head_emb _ inb_S4x1024x128_S1x1024x128_0_0_0 0 rfl rfl rfl z r d)).symm

/-! ## From blocks to the array -/

variable (V : (c : Dev nD) → (b : Ref sig .tc) → Buf (Elt Ideal) ((c : Thread nD τ).loc b))

/-- The block at `(p, r, d)` is the specification's normalised row `n` where the block's embedding rows are rows
    `n0 … n0 + 1023` of the embeddings `X`, `n = n0 + r`, and its weight table is `W`. -/
private theorem normBlock_unitRows (X : Cert.Spec.Emb.Idx → EReal) (W : Cert.Spec.Wts.Idx → EReal)
    (x : Vec Ideal S1024x128 .f32) (w : Vec Ideal S4x128 .f32) (n0 : Nat)
    (hx : ∀ (r : Fin 1024) (d : Fin 128) (n : Fin 8192), n.val = n0 + r.val → x (ix2 r d) = X (ix2 n d))
    (hw : ∀ (p : Fin 4) (d : Fin 128), w (ix2 p d) = W (ix2 p d))
    (p : Fin 4) (r : Fin 1024) (d : Fin 128) (n : Fin 8192) (hn : n.val = n0 + r.val) :
    normBlock x w (ix3 p r d) = Cert.Spec.unitRows X W (ix3 p n d) := by
  refine (normBlock_apply x w _).trans ?_
  show blkUnit x w p r d = Cert.Spec.unitRow X W p n d
  unfold blkUnit Cert.Spec.unitRow Cert.Spec.rowNorm Cert.Spec.sumSq blkScaled Cert.Spec.scaled
  simp only [hx r _ n hn, hw]

/-- The printed index maps over the grid: point `t` reads row tile `t` of the embeddings and the whole weight table,
    and writes row tile `t` of every head. -/
private theorem tile_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- Point `t`'s block of embedding rows is rows `1024 t … 1024 t + 1023` of the embeddings. -/
private theorem embBlock_apply (c : Dev nD) (t : Fin cfg0.N) (r : Fin 1024) (d : Fin 128) (n : Fin 8192) (hn : n.val = 1024 * t.val + r.val) :
    (iblk0 V c 0 t : Vec Ideal S1024x128 .f32) (ix2 r d) = (V c main_arg0 : Cert.Spec.Emb.Idx → EReal) (ix2 n d) := by
  obtain ⟨e0, e1, -⟩ := tile_facts t
  unfold iblk0
  rw [View.read_apply]
  show V c main_arg0 _ = V c main_arg0 _
  congr 1
  funext a
  apply Fin.ext
  match a with
  | ⟨0, _⟩ => show win0_0.index t (0 : Fin 2) * 1024 + 1 * r.val = n.val; rw [e0, hn]; omega
  | ⟨1, _⟩ => show win0_0.index t (1 : Fin 2) * 128 + 1 * d.val = d.val; rw [e1]; omega

/-- Every point's block of the weight table is the whole table. -/
private theorem wtsBlock_apply (c : Dev nD) (t : Fin cfg0.N) (p : Fin 4) (d : Fin 128) :
    (iblk0 V c 1 t : Vec Ideal S4x128 .f32) (ix2 p d) = (V c main_arg1 : Cert.Spec.Wts.Idx → EReal) (ix2 p d) := by
  obtain ⟨-, -, e2, e3, -⟩ := tile_facts t
  unfold iblk0
  rw [View.read_apply]
  show V c main_arg1 _ = V c main_arg1 _
  congr 1
  funext a
  apply Fin.ext
  match a with
  | ⟨0, _⟩ => show win0_1.index t (0 : Fin 2) * 4 + 1 * p.val = p.val; rw [e2]; omega
  | ⟨1, _⟩ => show win0_1.index t (1 : Fin 2) * 128 + 1 * d.val = d.val; rw [e3]; omega

/-- WHAT POINT `t` WRITES BACK is block `t` of the specification's array of normalised rows. -/
private theorem flushed_eq (c : Dev nD) (t : Fin cfg0.N) :
    (dat0 (F := Ideal) V c).flushed 2 t
      = ((cfg0.win 2).blk t).view.read (Elt Ideal) (Cert.Spec.unitRows (V c main_arg0) (V c main_arg1)) := by
  show (cfg0.win 2).cut (grid0.coords t) ((dat0 (F := Ideal) V c).after 2 t) = _
  rw [after0_2]
  obtain ⟨-, -, -, -, e4, e5, e6⟩ := tile_facts t
  have ht : t.val < 8 := lt_of_lt_of_eq t.isLt (show cfg0.N = 8 from N_0)
  funext j
  obtain ⟨p, r, d, rfl⟩ : ∃ (p : Fin 4) (r : Fin 1024) (d : Fin 128), j = ix3 p r d := ⟨j 0, j 1, j 2, eq_ix3 j⟩
  have hr := r.isLt
  have hemb : ((cfg0.win 2).blk t).view.emb (ix3 p r d) = (ix3 p ⟨1024 * t.val + r.val, by omega⟩ d : Cert.Spec.Units.Idx) := by
    funext a
    apply Fin.ext
    match a with
    | ⟨0, _⟩ => show win0_2.index t (0 : Fin 3) * 4 + 1 * p.val = p.val; rw [e4]; omega
    | ⟨1, _⟩ => show win0_2.index t (1 : Fin 3) * 1024 + 1 * r.val = 1024 * t.val + r.val; rw [e5]; omega
    | ⟨2, _⟩ => show win0_2.index t (2 : Fin 3) * 128 + 1 * d.val = d.val; rw [e6]; omega
  show normBlock (iblk0 V c 0 t) (iblk0 V c 1 t) (ix3 p r d) = Cert.Spec.unitRows (V c main_arg0) (V c main_arg1) (((cfg0.win 2).blk t).view.emb (ix3 p r d))
  rw [hemb]
  exact normBlock_unitRows (V c main_arg0) (V c main_arg1) _ _ (1024 * t.val)
    (fun r' d' n hn => embBlock_apply V c t r' d' n hn) (fun p' d' => wtsBlock_apply V c t p' d') p r d _ rfl

/-- An index of the array is in point `t`'s block iff each coordinate is in the block's range on its axis. -/
private theorem mem_blk (t : Fin cfg0.N) (i : S4x8192x128.Idx) :
    i ∈ ((cfg0.win 2).blk t).view.set ↔ ∀ a : Fin 3, win0_2.index t a * S4x1024x128.size a ≤ (i a).val ∧ (i a).val < win0_2.index t a * S4x1024x128.size a + S4x1024x128.size a := by
  show i ∈ ((View.whole main_v0).slice (win0_2.rect t)).set ↔ _
  rw [View.set_slice_whole, Rect.mem_set_unit]
  exact Iff.rfl

/-- The eight row tiles cover the array: row `n` of any head is in the block of point `n / 1024`. -/
private theorem covered (i : S4x8192x128.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 128 := (i 2).isLt
  have hN : cfg0.N = 8 := N_0
  let t : Fin cfg0.N := ⟨(i 1).val / 1024, by rw [hN]; omega⟩
  obtain ⟨-, -, -, -, e4, e5, e6⟩ := tile_facts t
  have ht : t.val = (i 1).val / 1024 := rfl
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; rw [e4]; omega
  | ⟨1, _⟩ => show win0_2.index t (1 : Fin 3) * 1024 ≤ (i 1).val ∧ (i 1).val < win0_2.index t (1 : Fin 3) * 1024 + 1024; rw [e5, ht]; omega
  | ⟨2, _⟩ => show win0_2.index t (2 : Fin 3) * 128 ≤ (i 2).val ∧ (i 2).val < win0_2.index t (2 : Fin 3) * 128 + 128; rw [e6]; omega

/-- After the first kernel's eight grid points the array of normalised rows holds `Spec.unitRows` of the embeddings and
    the weights the kernel found. -/
theorem normValue (c : Dev nD) :
    ((dat0 (F := Ideal) V c).arrAt 2 cfg0.N : Cert.Spec.Units.Idx → EReal) = Cert.Spec.unitRows (V c main_arg0) (V c main_arg1) :=
  (dat0 (F := Ideal) V c).arrAt_eq_of_cover 2 (Cert.Spec.unitRows (V c main_arg0) (V c main_arg1))
    (fun t _ => flushed_eq V c t) covered

end Cert.KernelIdeal.Hand

end
-- ==== Proof.AttnValue.lean ====
/-
  What the second kernel leaves in the array of similarities, at the ideal values: block `(i, j)` of the array is
  `attnBlock` of row tiles `i` and `j` of the normalised rows, the sixty-four blocks tile the array, and at every index
  the stored payload is the four heads' dot products added from zero and multiplied by one quarter.
-/
import proofs.«134704_j29703993819992_1_alg».proof.Proof.KernelIdeal.Data
import proofs.«134704_j29703993819992_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## One head's product of a row tile with a transposed row tile, at an index -/

/-- The left operand's row is the result's row. -/
private theorem lhs_headDot_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The left operand's column is the contracted position. -/
private theorem lhs_headDot_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
/-- The right operand's row is the contracted position. -/
private theorem rhs_headDot_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
/-- The right operand's column is the result's column. -/
private theorem rhs_headDot_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- A `[1, 1024, 128]` slice viewed as `[1024, 128]` reads `(r, d)` at `(0, r, d)`. -/
private theorem dropHead_apply (a : FVec Ideal S1x1024x128 .bf16) (r : Fin 1024) (d : Fin 128) :
    shapeCast S1024x128 a shapeCasts_S1x1024x128_S1024x128 (ix2 r d) = a (ix3 (0 : Fin 1) r d) := by
  refine (shapeCast_dropUnit_apply ![1024, 128] a shapeCasts_S1x1024x128_S1024x128 (ix2 r d)).trans ?_
  refine congrArg a (funext fun ax => ?_)
  match ax with
  | ⟨0, _⟩ => rfl
  | ⟨1, _⟩ => rfl
  | ⟨2, _⟩ => rfl

/-- The transposed slice reads `(d, s)` at `(0, s, d)`. -/
private theorem transHead_apply (b : FVec Ideal S1x1024x128 .bf16) (s : Fin 1024) (d : Fin 128) :
    transpose S128x1024 [1, 0] (shapeCast S1024x128 b shapeCasts_S1x1024x128_S1024x128) transposes_S1024x128_p1_0_S128x1024 (ix2 d s) = b (ix3 (0 : Fin 1) s d) := by
  refine (transpose_apply [1, 0] _ transposes_S1024x128_p1_0_S128x1024 (ix2 d s) (ix2 s d) (fun ax => ?_)).trans (dropHead_apply b s d)
  match ax with
  | ⟨0, _⟩ => rfl
  | ⟨1, _⟩ => rfl

/-- ONE HEAD: the product of a row tile with the transpose of a row tile, into the zero accumulator, has at `(r, s)`
    the sum over the 128 columns of the products of row `r` of the first and row `s` of the second. -/
private theorem headMatmul_apply (a b : FVec Ideal S1x1024x128 .bf16) (r s : Fin 1024) :
    matmul dot_S1024x128_S128x1024_S1024x1024_1_0_0_1_n_n none (shapeCast S1024x128 a shapeCasts_S1x1024x128_S1024x128)
        (transpose S128x1024 [1, 0] (shapeCast S1024x128 b shapeCasts_S1x1024x128_S1024x128) transposes_S1024x128_p1_0_S128x1024)
        (constant (F := Ideal) S1024x1024 .f32 0x00000000#32) (ix2 r s)
      = ∑ d : Fin 128, a (ix3 (0 : Fin 1) r d) * b (ix3 (0 : Fin 1) s d) := by
  show FloatOps.matmul dot_S1024x128_S128x1024_S1024x1024_1_0_0_1_n_n none _ _ (constant (F := Ideal) S1024x1024 .f32 0x00000000#32) (ix2 r s) = _
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 r s) ((ValueIdx.contrEquiv1 dot_S1024x128_S128x1024_S1024x1024_1_0_0_1_n_n 128 rfl rfl).symm k) = ix2 r k := funext fun ax => Fin.ext (by
    match ax with
    | ⟨0, _⟩ => exact lhs_headDot_0 _ _
    | ⟨1, _⟩ => exact (lhs_headDot_1 _ _).trans hk)
  have er : dot_S1024x128_S128x1024_S1024x1024_1_0_0_1_n_n.rhsIdx (ix2 r s) ((ValueIdx.contrEquiv1 dot_S1024x128_S128x1024_S1024x1024_1_0_0_1_n_n 128 rfl rfl).symm k) = ix2 k s := funext fun ax => Fin.ext (by
    match ax with
    | ⟨0, _⟩ => exact (rhs_headDot_0 _ _).trans hk
    | ⟨1, _⟩ => exact rhs_headDot_1 _ _)
  rw [el, er, dropHead_apply, transHead_apply]

/-! ## The stored payload and the block of similarities, at an index -/

/-- THE PAYLOAD: the four heads' products added one after the other from zero, then multiplied by one quarter. -/
private theorem pay_apply (a0 b0 a1 b1 a2 b2 a3 b3 : FVec Ideal S1x1024x128 .bf16) (r s : Fin 1024) :
    (k1_pay1 (F := Ideal) (k1_pay2 (F := Ideal) a0 b0 a1 b1 a2 b2 a3 b3) (ix2 r s) : EReal)
      = ((((0 + ∑ d : Fin 128, (a0 (ix3 (0 : Fin 1) r d) : EReal) * b0 (ix3 (0 : Fin 1) s d))
            + ∑ d : Fin 128, a1 (ix3 (0 : Fin 1) r d) * b1 (ix3 (0 : Fin 1) s d))
          + ∑ d : Fin 128, a2 (ix3 (0 : Fin 1) r d) * b2 (ix3 (0 : Fin 1) s d))
        + ∑ d : Fin 128, a3 (ix3 (0 : Fin 1) r d) * b3 (ix3 (0 : Fin 1) s d)) * Ideal.ofBits .f32 0x3E800000#32 := by
  unfold k1_pay1 k1_pay2
  show ((((Ideal.ofBits .f32 0x00000000#32
      + matmul dot_S1024x128_S128x1024_S1024x1024_1_0_0_1_n_n none (shapeCast S1024x128 a0 shapeCasts_S1x1024x128_S1024x128)
          (transpose S128x1024 [1, 0] (shapeCast S1024x128 b0 shapeCasts_S1x1024x128_S1024x128) transposes_S1024x128_p1_0_S128x1024)
          (constant (F := Ideal) S1024x1024 .f32 0x00000000#32) (ix2 r s))
      + matmul dot_S1024x128_S128x1024_S1024x1024_1_0_0_1_n_n none (shapeCast S1024x128 a1 shapeCasts_S1x1024x128_S1024x128)
          (transpose S128x1024 [1, 0] (shapeCast S1024x128 b1 shapeCasts_S1x1024x128_S1024x128) transposes_S1024x128_p1_0_S128x1024)
          (constant (F := Ideal) S1024x1024 .f32 0x00000000#32) (ix2 r s))
      + matmul dot_S1024x128_S128x1024_S1024x1024_1_0_0_1_n_n none (shapeCast S1024x128 a2 shapeCasts_S1x1024x128_S1024x128)
          (transpose S128x1024 [1, 0] (shapeCast S1024x128 b2 shapeCasts_S1x1024x128_S1024x128) transposes_S1024x128_p1_0_S128x1024)
          (constant (F := Ideal) S1024x1024 .f32 0x00000000#32) (ix2 r s))
      + matmul dot_S1024x128_S128x1024_S1024x1024_1_0_0_1_n_n none (shapeCast S1024x128 a3 shapeCasts_S1x1024x128_S1024x128)
          (transpose S128x1024 [1, 0] (shapeCast S1024x128 b3 shapeCasts_S1x1024x128_S1024x128) transposes_S1024x128_p1_0_S128x1024)
          (constant (F := Ideal) S1024x1024 .f32 0x00000000#32) (ix2 r s))
      * Ideal.ofBits .f32 0x3E800000#32 = _
  rw [headMatmul_apply, headMatmul_apply, headMatmul_apply, headMatmul_apply, Ideal.ofBits_zero_f32]

private theorem hz2 : (![0, 0] : Fin 2 → Nat) = fun _ => 0 := funext fun a => by fin_cases a <;> rfl

/-- Head `p`'s slice of a block of normalised rows reads `(0, r, d)` at `(p, r, d)`. -/
private theorem ldHead_apply (a : Vec Ideal S4x1024x128 .bf16) (p : Nat) (hp : p < 4)
    (inb : ∀ ax, (![p, 0, 0] : Fin 3 → Nat) ax + S1x1024x128.size ax ≤ S4x1024x128.size ax) (r : Fin 1024) (d : Fin 128) :
    View.ld a (Rect.unit (s := S4x1024x128) ![p, 0, 0] S1x1024x128.size inb) (ix3 (0 : Fin 1) r d) = a (ix3 (⟨p, hp⟩ : Fin 4) r d) := by
  show a _ = a _
  refine congrArg a (funext fun ax => Fin.ext ?_)
  match ax with
  | ⟨0, _⟩ => show p + 1 * 0 = p; omega
  | ⟨1, _⟩ => show 0 + 1 * r.val = r.val; omega
  | ⟨2, _⟩ => show 0 + 1 * d.val = d.val; omega

/-- THE BLOCK of similarities from a row-tile block `a` and a column-tile block `b` of normalised rows, at `(r, s)`. -/
private theorem attnBlock_apply (a b : Vec Ideal S4x1024x128 .bf16) (r s : Fin 1024) :
    (attnBlock a b (ix2 r s) : EReal)
      = ((((0 + ∑ d : Fin 128, (a (ix3 (0 : Fin 4) r d) : EReal) * b (ix3 (0 : Fin 4) s d))
            + ∑ d : Fin 128, a (ix3 (1 : Fin 4) r d) * b (ix3 (1 : Fin 4) s d))
          + ∑ d : Fin 128, a (ix3 (2 : Fin 4) r d) * b (ix3 (2 : Fin 4) s d))
        + ∑ d : Fin 128, a (ix3 (3 : Fin 4) r d) * b (ix3 (3 : Fin 4) s d)) * Ideal.ofBits .f32 0x3E800000#32 := by
  unfold attnBlock
  rw [View.canon_unit_zero hz2]
  refine (pay_apply _ _ _ _ _ _ _ _ r s).trans ?_
  have e0 : ∀ (x : Vec Ideal S4x1024x128 .bf16) (t : Fin 1024) (d : Fin 128), View.ld x rHead0 (ix3 (0 : Fin 1) t d) = x (ix3 (0 : Fin 4) t d) :=
    fun x t d => ldHead_apply x 0 (by decide) _ t d
  have e1 : ∀ (x : Vec Ideal S4x1024x128 .bf16) (t : Fin 1024) (d : Fin 128), View.ld x rHead1 (ix3 (0 : Fin 1) t d) = x (ix3 (1 : Fin 4) t d) :=
    fun x t d => ldHead_apply x 1 (by decide) _ t d
  have e2 : ∀ (x : Vec Ideal S4x1024x128 .bf16) (t : Fin 1024) (d : Fin 128), View.ld x rHead2 (ix3 (0 : Fin 1) t d) = x (ix3 (2 : Fin 4) t d) :=
    fun x t d => ldHead_apply x 2 (by decide) _ t d
  have e3 : ∀ (x : Vec Ideal S4x1024x128 .bf16) (t : Fin 1024) (d : Fin 128), View.ld x rHead3 (ix3 (0 : Fin 1) t d) = x (ix3 (3 : Fin 4) t d) :=
    fun x t d => ldHead_apply x 3 (by decide) _ t d
  refine congrArg (· * Ideal.ofBits .f32 0x3E800000#32) ?_
  refine congrArg₂ (· + ·) (congrArg₂ (· + ·) (congrArg₂ (· + ·) (congrArg (0 + ·) ?_) ?_) ?_) ?_
  · exact Finset.sum_congr rfl fun d _ => congrArg₂ (· * ·) (e0 a r d) (e0 b s d)
  · exact Finset.sum_congr rfl fun d _ => congrArg₂ (· * ·) (e1 a r d) (e1 b s d)
  · exact Finset.sum_congr rfl fun d _ => congrArg₂ (· * ·) (e2 a r d) (e2 b s d)
  · exact Finset.sum_congr rfl fun d _ => congrArg₂ (· * ·) (e3 a r d) (e3 b s d)

/-! ## The grid's index maps, and the blocks of normalised rows the two input windows read -/

/-- Decided over the sixty-four points: the first input window's block is row tile `i` and the second's row tile
    `j`, all heads and all columns of each, where `(i, j)` is the output block's index; both are below eight. -/
private theorem idx_facts : ∀ t : Fin cfg1.N,
    win1_0.index t (0 : Fin 3) = 0 ∧ win1_0.index t (1 : Fin 3) = win1_2.index t (0 : Fin 2) ∧ win1_0.index t (2 : Fin 3) = 0
    ∧ win1_1.index t (0 : Fin 3) = 0 ∧ win1_1.index t (1 : Fin 3) = win1_2.index t (1 : Fin 2) ∧ win1_1.index t (2 : Fin 3) = 0
    ∧ win1_2.index t (0 : Fin 2) ≤ 7 ∧ win1_2.index t (1 : Fin 2) ≤ 7 :=
  (by decide +kernel : ∀ t : Fin grid1.N, _)

/-- Every block index `(i, j)` is some point's. -/
private theorem idx_onto : ∀ (q0 : Fin 8) (q1 : Fin 8), ∃ t : Fin cfg1.N, win1_2.index t = ![q0.val, q1.val] :=
  (by decide +kernel : ∀ (q0 : Fin 8) (q1 : Fin 8), ∃ t : Fin grid1.N, win1_2.index t = ![q0.val, q1.val])

variable (V : (c : Dev nD) → (b : Ref sig .tc) → Buf (Elt Ideal) ((c : Thread nD τ).loc b))

/-- The first input window's block at point `t` is row tile `i` of the array of normalised rows. -/
private theorem rowTile_apply (c : Dev nD) (t : Fin cfg1.N) (p : Fin 4) (r : Fin 1024) (d : Fin 128) (n : Fin 8192)
    (hn : n.val = win1_2.index t (0 : Fin 2) * 1024 + r.val) :
    ((iblk1 (F := Ideal) V c 0 t : Vec Ideal S4x1024x128 .bf16) (ix3 p r d) : EReal) = (V c main_v0 : S4x8192x128.Idx → EReal) (ix3 p n d) := by
  obtain ⟨e0, e1, e2, e3, e4, e5, e6, e7⟩ := idx_facts t
  unfold iblk1
  rw [View.read_apply]
  show V c main_v0 _ = V c main_v0 _
  congr 1
  funext a
  apply Fin.ext
  match a with
  | ⟨0, _⟩ => show win1_0.index t (0 : Fin 3) * 4 + 1 * p.val = p.val; rw [e0]; omega
  | ⟨1, _⟩ => show win1_0.index t (1 : Fin 3) * 1024 + 1 * r.val = n.val; rw [e1, hn]; omega
  | ⟨2, _⟩ => show win1_0.index t (2 : Fin 3) * 128 + 1 * d.val = d.val; rw [e2]; omega

/-- The second input window's block at point `t` is row tile `j` of the same array. -/
private theorem colTile_apply (c : Dev nD) (t : Fin cfg1.N) (p : Fin 4) (s : Fin 1024) (d : Fin 128) (m : Fin 8192)
    (hm : m.val = win1_2.index t (1 : Fin 2) * 1024 + s.val) :
    ((iblk1 (F := Ideal) V c 1 t : Vec Ideal S4x1024x128 .bf16) (ix3 p s d) : EReal) = (V c main_v0 : S4x8192x128.Idx → EReal) (ix3 p m d) := by
  obtain ⟨e0, e1, e2, e3, e4, e5, e6, e7⟩ := idx_facts t
  unfold iblk1
  rw [View.read_apply]
  show V c main_v0 _ = V c main_v0 _
  congr 1
  funext a
  apply Fin.ext
  match a with
  | ⟨0, _⟩ => show win1_1.index t (0 : Fin 3) * 4 + 1 * p.val = p.val; rw [e3]; omega
  | ⟨1, _⟩ => show win1_1.index t (1 : Fin 3) * 1024 + 1 * s.val = m.val; rw [e4, hm]; omega
  | ⟨2, _⟩ => show win1_1.index t (2 : Fin 3) * 128 + 1 * d.val = d.val; rw [e5]; omega

/-! ## The block a point writes back, the cover, the array -/

/-- WHAT POINT `t` WRITES BACK is block `t` of `Spec.quarterOfHeads` of the array of normalised rows: at `(r, s)` of the
    block the payload's four sums run over rows `1024 i + r` and `1024 j + s` of the array. -/
private theorem flushed_eq (c : Dev nD) (t : Fin cfg1.N) :
    (dat1 (F := Ideal) V c).flushed 2 t = ((cfg1.win 2).blk t).view.read (Elt Ideal) (Cert.Spec.quarterOfHeads (V c main_v0)) := by
  show (cfg1.win 2).cut (grid1.coords t) ((dat1 (F := Ideal) V c).after 2 t) = _
  rw [after1_2]
  obtain ⟨e0, e1, e2, e3, e4, e5, e6, e7⟩ := idx_facts t
  funext j
  show (attnBlock (iblk1 (F := Ideal) V c 0 t) (iblk1 (F := Ideal) V c 1 t) : Vec Ideal S1024x1024 .f32) j
    = Cert.Spec.quarterOfHeads (V c main_v0) (((cfg1.win 2).blk t).view.emb j)
  obtain ⟨r, s, rfl⟩ : ∃ (r s : Fin 1024), j = ix2 r s := ⟨j 0, j 1, eq_ix2 j⟩
  have hr := r.isLt
  have hs := s.isLt
  obtain ⟨n, hn⟩ : ∃ n : Fin 8192, n.val = win1_2.index t (0 : Fin 2) * 1024 + r.val := ⟨⟨_, by omega⟩, rfl⟩
  obtain ⟨m, hm⟩ : ∃ m : Fin 8192, m.val = win1_2.index t (1 : Fin 2) * 1024 + s.val := ⟨⟨_, by omega⟩, rfl⟩
  have hemb : ((cfg1.win 2).blk t).view.emb (ix2 r s) = (ix2 n m : S8192x8192.Idx) := by
    funext a
    apply Fin.ext
    match a with
    | ⟨0, _⟩ => show win1_2.index t (0 : Fin 2) * 1024 + 1 * r.val = n.val; rw [hn]; omega
    | ⟨1, _⟩ => show win1_2.index t (1 : Fin 2) * 1024 + 1 * s.val = m.val; rw [hm]; omega
  rw [hemb, attnBlock_apply]
  show _ = ((((0 + Cert.Spec.headDot (V c main_v0) 0 n m) + Cert.Spec.headDot (V c main_v0) 1 n m) + Cert.Spec.headDot (V c main_v0) 2 n m)
    + Cert.Spec.headDot (V c main_v0) 3 n m) * Ideal.ofBits .f32 0x3E800000#32
  unfold Cert.Spec.headDot
  refine congrArg (· * Ideal.ofBits .f32 0x3E800000#32) ?_
  refine congrArg₂ (· + ·) (congrArg₂ (· + ·) (congrArg₂ (· + ·) (congrArg (0 + ·) ?_) ?_) ?_) ?_
  · exact Finset.sum_congr rfl fun d _ => congrArg₂ (· * ·) (rowTile_apply V c t 0 r d n hn) (colTile_apply V c t 0 s d m hm)
  · exact Finset.sum_congr rfl fun d _ => congrArg₂ (· * ·) (rowTile_apply V c t 1 r d n hn) (colTile_apply V c t 1 s d m hm)
  · exact Finset.sum_congr rfl fun d _ => congrArg₂ (· * ·) (rowTile_apply V c t 2 r d n hn) (colTile_apply V c t 2 s d m hm)
  · exact Finset.sum_congr rfl fun d _ => congrArg₂ (· * ·) (rowTile_apply V c t 3 r d n hn) (colTile_apply V c t 3 s d m hm)

/-- An index of the array is in point `t`'s block iff each coordinate is in the block's range on its axis. -/
private theorem mem_blk (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- THE COVER: the sixty-four blocks of 1024 × 1024 tile the array; index `(n, m)` is in the block of the point whose
    block index is `(n / 1024, m / 1024)`. -/
private theorem covered (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- After the second kernel's sixty-four grid points the array of similarities holds `Spec.quarterOfHeads` of the array
    of normalised rows the kernel found. -/
theorem attnValue (c : Dev nD) :
    ((dat1 (F := Ideal) V c).arrAt 2 cfg1.N : Cert.Spec.Sims.Idx → EReal) = Cert.Spec.quarterOfHeads (V c main_v0) :=
  (dat1 (F := Ideal) V c).arrAt_eq_of_cover 2 (Cert.Spec.quarterOfHeads (V c main_v0)) (fun t _ => flushed_eq V c t) covered

end Cert.KernelIdeal.Hand

end
-- ==== Proof.HeadsMean.lean ====
/-
  A quarter of the heads' sum is their mean.

  The second kernel adds the four heads' dot products one after the other from zero and multiplies by the word for one
  quarter; the reference sums over the heads and divides by the word for four. On the extended reals the quotient by a
  nonzero real is the product with its reciprocal, at every value including the infinities, so the two agree
  everywhere: no finiteness is needed.
-/
import proofs.«134704_j29703993819992_1_alg».proof.Proof.Spec

noncomputable section

namespace Cert.Spec

open Idealize.ShloMosaic

/-- The word `0x40800000` denotes the real 4. -/
theorem ofBits_four : Ideal.ofBits .f32 0x40800000#32 = ((4 : ℝ) : EReal) := by
  simp [Ideal.ofBits, Ideal.ieee, -EReal.coe_mul]; norm_num

/-- The word `0x3E800000` denotes the real 1/4. -/
theorem ofBits_quarter : Ideal.ofBits .f32 0x3E800000#32 = ((1 / 4 : ℝ) : EReal) := by
  simp [Ideal.ofBits, Ideal.ieee, -EReal.coe_mul]; norm_num

/-- The heads added from zero and multiplied by a quarter are the heads' sum divided by four. -/
theorem quarterOfHeads_eq (u : Units.Idx → EReal) : quarterOfHeads u = meanOfHeads u := by
  funext i
  unfold quarterOfHeads meanOfHeads
  rw [ofBits_four, ofBits_quarter, Ideal.div_coe (by norm_num : (4 : ℝ) ≠ 0), Fin.sum_univ_four, zero_add]

end Cert.Spec

end
-- ==== Proof.RefValue.lean ====
/-
  The reference's result is the mean cosine similarity of the specification: its operations, read one at a time at an
  index, are the specification's `scaled`, `sumSq` (the host's sum starts from the zero word), `rowNorm`, `unitRow`,
  `headDot` (the batched contraction over the 128 columns) and the sum over the four heads divided by the word for four.
-/
import proofs.«134704_j29703993819992_1_alg».proof.Proof.Gen.ReferenceIdeal.Run
import proofs.«134704_j29703993819992_1_alg».proof.Proof.Gen.ReferenceIdeal.Read
import proofs.«134704_j29703993819992_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Read

/-- The product of the two broadcast arguments at `[p, n, d]` is the reweighted entry `x[n, d] · w[p, d]`. -/
private theorem scaled_eq (x : (⟨S8192x128, .f32⟩ : BufTy).Contents (Elt Ideal)) (w : (⟨S4x128, .f32⟩ : BufTy).Contents (Elt Ideal))
    (p : Fin 4) (n : Fin 8192) (d : Fin 128) :
    val_main_v4 (F := Ideal) x w (ix3 p n d) = Cert.Spec.scaled x w p n d := by
  have e0 : idx_main_v0 (idx_main_v2 (ix3 p n d)) = ix2 n d :=
    funext fun a => Fin.ext (by match a with | ⟨0, _⟩ => rfl | ⟨1, _⟩ => rfl)
  have e1 : idx_main_v1 (idx_main_v3 (ix3 p n d)) = ix2 p d :=
    funext fun a => Fin.ext (by match a with | ⟨0, _⟩ => rfl | ⟨1, _⟩ => rfl)
  rw [val_main_v4_apply, val_main_v2_apply, val_main_v0_apply, val_main_v3_apply, val_main_v1_apply, e0, e1]
  rfl

/-- The clamped norm the reference broadcasts along the columns is the specification's `rowNorm`. -/
private theorem norm_eq (x : (⟨S8192x128, .f32⟩ : BufTy).Contents (Elt Ideal)) (w : (⟨S4x128, .f32⟩ : BufTy).Contents (Elt Ideal))
    (p : Fin 4) (n : Fin 8192) (d : Fin 128) :
    val_main_v11 (F := Ideal) x w (ix3 p n d) = Cert.Spec.rowNorm x w p n := by
  have e6 : ∀ k : Fin 128, idx_main_v6 (idx_main_v7 (idx_main_v11 (ix3 p n d))) k = ix3 p n k := fun k =>
    funext fun a => Fin.ext (by match a with | ⟨0, _⟩ => rfl | ⟨1, _⟩ => rfl | ⟨2, _⟩ => rfl)
  rw [val_main_v11_apply, val_main_v10_apply, val_main_v8_apply, val_main_v7_apply, val_main_v6_apply,
    val_main_v9_apply, val_main_cst_0_apply, val_main_cst_apply]
  simp only [e6, val_main_v5_apply, scaled_eq, Ideal.maximumf_def, Ideal.hostUnary_sqrt_def, Ideal.mulf_def, Ideal.ofBits_def,
    Ideal.ofBits_zero_f32, zero_add, Cert.Spec.rowNorm, Cert.Spec.sumSq]

/-- The reference's normalised array is the specification's `unitRows`. -/
private theorem unit_eq (x : (⟨S8192x128, .f32⟩ : BufTy).Contents (Elt Ideal)) (w : (⟨S4x128, .f32⟩ : BufTy).Contents (Elt Ideal))
    (p : Fin 4) (n : Fin 8192) (d : Fin 128) :
    val_main_v12 (F := Ideal) x w (ix3 p n d) = Cert.Spec.unitRows x w (ix3 p n d) := by
  rw [val_main_v12_apply, scaled_eq, norm_eq]
  rfl

/-- The reference's last stage, as a function of the two argument arrays, is `Spec.meanCos`. -/
theorem ref_eq (x : (⟨S8192x128, .f32⟩ : BufTy).Contents (Elt Ideal)) (w : (⟨S4x128, .f32⟩ : BufTy).Contents (Elt Ideal)) :
    (val_main_v16 (F := Ideal) x w : Cert.Spec.Sims.Idx → EReal) = Cert.Spec.meanCos x w := by
  funext i
  obtain ⟨n, m, rfl⟩ : ∃ (n m : Fin 8192), i = ix2 n m := ⟨i 0, i 1, eq_ix2 i⟩
  have el : ∀ (p : Fin 4) (k : Fin 128), lidx_main_v13 (idx_main_v14 (ix2 n m) p) k = ix3 p n k := fun p k =>
    funext fun a => Fin.ext (by match a with | ⟨0, _⟩ => rfl | ⟨1, _⟩ => rfl | ⟨2, _⟩ => rfl)
  have er : ∀ (p : Fin 4) (k : Fin 128), ridx_main_v13 (idx_main_v14 (ix2 n m) p) k = ix3 p m k := fun p k =>
    funext fun a => Fin.ext (by match a with | ⟨0, _⟩ => rfl | ⟨1, _⟩ => rfl | ⟨2, _⟩ => rfl)
  rw [val_main_v16_apply, val_main_v14_apply, val_main_v15_apply, val_main_cst_2_apply, val_main_cst_1_apply]
  simp only [val_main_v13_apply, el, er, unit_eq, Ideal.hostDivf_def, Ideal.ofBits_def, Ideal.ofBits_zero_f32, zero_add,
    Cert.Spec.meanCos, Cert.Spec.meanOfHeads, Cert.Spec.headDot]

end Cert.ReferenceIdeal.RefValue

end
-- ==== Proof.lean ====
/-
  Mean cosine similarity of reweighted, normalised embeddings: the kernel pair against the reference.

  For embeddings `x : [8192, 128]` and four weight rows `w : [4, 128]`, head `p` reweights every embedding row by
  `w[p, :]` and normalises it to unit Euclidean length (the norm clamped below by a constant the two programs share);
  the result at `(n, m)` is the mean over the four heads of the dot product of the normalised rows `n` and `m`.

  The kernel does this in two pipelined calls: the first writes the normalised rows of all four heads, block of 1024 rows
  by block; the second reads that array through two windows (row tile `i`, row tile `j`) and writes each 1024 × 1024 block
  of the result as the four heads' products added from zero and multiplied by one quarter. The reference computes the
  same rows on the host, contracts them head by head, sums over the heads and divides by four.

  * The three frames: each program runs to the end, faults nowhere and leaves its arguments unchanged. For the two
    kernel programs this is the run of Proof/Kernel/Run.lean and Proof/KernelIdeal/Run.lean (one text, generic in the float
    instance, in the two programs' namespaces); for the reference, its run with the result dropped.
  * `preserves`: the ideal pass rewrote nothing, so there is nothing to state.
  * `algebraic`: at the ideal values the first pipeline leaves `Spec.unitRows` (Proof/NormValue.lean), the second leaves
    `Spec.quarterOfHeads` of what it finds (Proof/AttnValue.lean), a quarter of the heads' sum is their mean on every
    extended real (Proof/HeadsMean.lean), and the reference's result is `Spec.meanCos` (Proof/RefValue.lean). No step
    needs the inputs finite.
-/
import proofs.«134704_j29703993819992_1_alg».proof.Defs
import proofs.«134704_j29703993819992_1_alg».proof.Proof.Gen.Kernel
import proofs.«134704_j29703993819992_1_alg».proof.Proof.Gen.KernelIdeal
import proofs.«134704_j29703993819992_1_alg».proof.Proof.Gen.ReferenceIdeal
import proofs.«134704_j29703993819992_1_alg».proof.Proof.Gen.Pre_finite_inputs
import proofs.«134704_j29703993819992_1_alg».proof.Proof.Gen.ReferenceIdeal.Run
import proofs.«134704_j29703993819992_1_alg».proof.Proof.Gen.ReferenceIdeal.Read
import proofs.«134704_j29703993819992_1_alg».proof.Proof.Kernel.Run
import proofs.«134704_j29703993819992_1_alg».proof.Proof.KernelIdeal.Run
import proofs.«134704_j29703993819992_1_alg».proof.Proof.NormValue
import proofs.«134704_j29703993819992_1_alg».proof.Proof.AttnValue
import proofs.«134704_j29703993819992_1_alg».proof.Proof.HeadsMean
import proofs.«134704_j29703993819992_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- What the second pipeline leaves in the similarities, from the launch memory: the mean cosine similarity of the two
    arguments. -/
theorem kernel_sims (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    ((Cert.KernelIdeal.Hand.dat1 (F := Ideal) (Cert.KernelIdeal.Hand.U1 m ρ) c).arrAt 2 Cert.KernelIdeal.cfg1.N : Cert.Spec.Sims.Idx → EReal)
      = Cert.Spec.meanCos (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  rw [Cert.KernelIdeal.Hand.attnValue, Cert.Spec.quarterOfHeads_eq, Cert.KernelIdeal.Hand.U1_main_v0,
    Cert.KernelIdeal.Hand.normValue]
  rfl

theorem algebraic : Cert.algebraic_KernelIdeal_ReferenceIdeal := by
  intro m ρ m' ρ' _ hagree
  refine ⟨fun c => Cert.Spec.meanCos (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_sims m ρ c), (h c).2⟩)
      (Cert.KernelIdeal.Hand.run_sims m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, (hagree c).1, (hagree c).2]
    exact Cert.ReferenceIdeal.RefValue.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
